-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8x64x128x128 : Shape := ⟨5, ![4, 8, 64, 128, 128]⟩
abbrev S4x1x64x128x128 : Shape := ⟨5, ![4, 1, 64, 128, 128]⟩
abbrev S_ : Shape := ⟨0, ![]⟩

class Facts : Prop where
  bcast_S_S4x8x64x128x128 : S_.BroadcastsInDim S4x8x64x128x128 (![] : Fin 0 → Fin S4x8x64x128x128.rank)
  reducesTo_S4x8x64x128x128_S_d0_1_2_3_4 : S4x8x64x128x128.ReducesTo [0, 1, 2, 3, 4] S_
  h_S_ : 0 < S_.numel

variable [Facts]

def fn {F : FTy → Type} [FloatOps F] (main_arg0 : FVec F S4x8x64x128x128 .f32) (main_arg1 : IVec S4x1x64x128x128 32) : IVec S_ 1 :=
  let main_v0 : FVec F S4x8x64x128x128 .f32 := Host.absf main_arg0
  let main_cst : FVec F S_ .f32 := constant S_ .f32 0x7F800000#32
  let main_v1 : FVec F S4x8x64x128x128 .f32 := broadcastInDim S4x8x64x128x128 ![] bcast_S_S4x8x64x128x128 main_cst
  let main_v2 : IVec S4x8x64x128x128 1 := cmpf .olt main_v0 main_v1
  let main_c : IVec S_ 1 := constantI S_ 1 1#1
  let main_v3 : IVec S_ 1 := (fun x v => Host.reduce IntOp.andi x v reducesTo_S4x8x64x128x128_S_d0_1_2_3_4 h_S_) main_v2 main_c
  main_v3
-- ==== Kernel.lean ====
abbrev S4x8x64x128x128 : Shape := ⟨5, ![4, 8, 64, 128, 128]⟩
abbrev S4x1x64x128x128 : Shape := ⟨5, ![4, 1, 64, 128, 128]⟩
abbrev S4x1x8 : Shape := ⟨3, ![4, 1, 8]⟩
abbrev S1x8x8x128x128 : Shape := ⟨5, ![1, 8, 8, 128, 128]⟩
abbrev S1x1x8x128x128 : Shape := ⟨5, ![1, 1, 8, 128, 128]⟩
abbrev S1x1x8 : Shape := ⟨3, ![1, 1, 8]⟩
abbrev S1x8 : Shape := ⟨2, ![1, 8]⟩
abbrev S8x8x128x128 : Shape := ⟨4, ![8, 8, 128, 128]⟩
abbrev S8x128x128 : Shape := ⟨3, ![8, 128, 128]⟩
abbrev S1x8x128x128 : Shape := ⟨4, ![1, 8, 128, 128]⟩
abbrev S8x8x128 : Shape := ⟨3, ![8, 8, 128]⟩
abbrev S8x8 : Shape := ⟨2, ![8, 8]⟩
abbrev S8 : Shape := ⟨1, ![8]⟩
abbrev S_ : Shape := ⟨0, ![]⟩

abbrev nBuf : Space → Nat
  | .hbm => 27
  | .vmem => 8
  | .smem => 0
  | _ => 0

abbrev bufTy : (tb : Table) → Fin (tcTables nBuf tb) → BufTy
  | .hbm, ⟨0, _⟩ => ⟨S4x8x64x128x128, .f32⟩
  | .hbm, ⟨1, _⟩ => ⟨S4x1x64x128x128, .i32⟩
  | .hbm, ⟨2, _⟩ => ⟨S4x1x8, .f32⟩
  | .hbm, ⟨3, _⟩ => ⟨S4x1x8, .f32⟩
  | .hbm, ⟨4, _⟩ => ⟨S_, .f32⟩
  | .hbm, ⟨5, _⟩ => ⟨S1x8, .f32⟩
  | .hbm, ⟨6, _⟩ => ⟨S8, .f32⟩
  | .hbm, ⟨7, _⟩ => ⟨S_, .f32⟩
  | .hbm, ⟨8, _⟩ => ⟨S1x8, .f32⟩
  | .hbm, ⟨9, _⟩ => ⟨S8, .f32⟩
  | .hbm, ⟨10, _⟩ => ⟨S_, .f32⟩
  | .hbm, ⟨11, _⟩ => ⟨S8, .f32⟩
  | .hbm, ⟨12, _⟩ => ⟨S8, .i1⟩
  | .hbm, ⟨13, _⟩ => ⟨S_, .f32⟩
  | .hbm, ⟨14, _⟩ => ⟨S8, .f32⟩
  | .hbm, ⟨15, _⟩ => ⟨S8, .f32⟩
  | .hbm, ⟨16, _⟩ => ⟨S8, .f32⟩
  | .hbm, ⟨17, _⟩ => ⟨S8, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S8, .f32⟩
  | .hbm, ⟨23, _⟩ => ⟨S8, .f32⟩
  | .hbm, ⟨24, _⟩ => ⟨S_, .f32⟩
  | .hbm, ⟨25, _⟩ => ⟨S_, .f32⟩
  | .hbm, ⟨26, _⟩ => ⟨S_, .f32⟩
  | .local _ .vmem, ⟨0, _⟩ => ⟨S1x8x8x128x128, .f32⟩
  | .local _ .vmem, ⟨1, _⟩ => ⟨S1x8x8x128x128, .f32⟩
  | .local _ .vmem, ⟨2, _⟩ => ⟨S1x1x8x128x128, .i32⟩
  | .local _ .vmem, ⟨3, _⟩ => ⟨S1x1x8x128x128, .i32⟩
  | .local _ .vmem, ⟨4, _⟩ => ⟨S1x1x8, .f32⟩
  | .local _ .vmem, ⟨5, _⟩ => ⟨S1x1x8, .f32⟩
  | .local _ .vmem, ⟨6, _⟩ => ⟨S1x1x8, .f32⟩
  | .local _ .vmem, ⟨7, _⟩ => ⟨S1x1x8, .f32⟩
  | _, _ => ⟨S4x8x64x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_3 : Ref sig .tc := ⟨.hbm, 18, rfl⟩
abbrev main_v11 : Ref sig .tc := ⟨.hbm, 19, rfl⟩
abbrev main_cst_4 : Ref sig .tc := ⟨.hbm, 20, rfl⟩
abbrev main_call0_v0 : Ref sig .tc := ⟨.hbm, 21, rfl⟩
abbrev main_call0_v1 : Ref sig .tc := ⟨.hbm, 22, rfl⟩
abbrev main_v12 : Ref sig .tc := ⟨.hbm, 23, rfl⟩
abbrev main_cst_5 : Ref sig .tc := ⟨.hbm, 24, rfl⟩
abbrev main_v13 : Ref sig .tc := ⟨.hbm, 25, rfl⟩
abbrev main_v14 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 8], ![false, false]⟩

def cc0_transform_0 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_1 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x8x8x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x8x128x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x8 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x8 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  inb_S1x1x8_S1x1x8_0_0_0 : ∀ a, (![0, 0, 0] : Fin 3 → Nat) a + S1x1x8.size a ≤ S1x1x8.size a
  h_S1x1x8 : 0 < S1x1x8.numel
  shapeCasts_S1x1x8_S1x8 : S1x1x8.ShapeCasts S1x8
  shapeCasts_S1x8_S1x1x8 : S1x8.ShapeCasts S1x1x8
  inb_S1x8x8x128x128_S1x8x8x128x128_0_0_0_0_0 : ∀ a, (![0, 0, 0, 0, 0] : Fin 5 → Nat) a + S1x8x8x128x128.size a ≤ S1x8x8x128x128.size a
  h_S1x8x8x128x128 : 0 < S1x8x8x128x128.numel
  shapeCasts_S1x8x8x128x128_S8x8x128x128 : S1x8x8x128x128.ShapeCasts S8x8x128x128
  inb_S1x1x8x128x128_S1x1x8x128x128_0_0_0_0_0 : ∀ a, (![0, 0, 0, 0, 0] : Fin 5 → Nat) a + S1x1x8x128x128.size a ≤ S1x1x8x128x128.size a
  h_S1x1x8x128x128 : 0 < S1x1x8x128x128.numel
  shapeCasts_S1x1x8x128x128_S8x128x128 : S1x1x8x128x128.ShapeCasts S8x128x128
  reduces_S8x8x128x128_S8x128x128 : S8x8x128x128.Reduces [0] S8x128x128
  shapeCasts_S8x128x128_S1x8x128x128 : S8x128x128.ShapeCasts S1x8x128x128
  broadcasts_S1x8x128x128_S8x8x128x128 : S1x8x128x128.Broadcasts S8x8x128x128
  iota_S8x8x128x128_d0_w32 : S8x8x128x128.Iotas .tc 32 [0]
  reduces_S8x8x128x128_S8x8x128 : S8x8x128x128.Reduces [3] S8x8x128
  reduces_S8x8x128_S8x8 : S8x8x128.Reduces [2] S8x8
  reduces_S8x8_S8 : S8x8.Reduces [1] S8
  natLt_1_32 : 1 < 32
  shapeCasts_S8_S1x8 : S8.ShapeCasts S1x8
  reducesTo_S4x1x8_S1x8_d0 : S4x1x8.ReducesTo [0] S1x8
  h_S_ : 0 < S_.numel
  shapeCasts_S1x8_S8 : S1x8.ShapeCasts S8
  bcast_S_S8 : S_.BroadcastsInDim S8 (![] : Fin 0 → Fin S8.rank)
  reducesTo_S8_S_d0 : S8.ReducesTo [0] S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x8x8x128x128.size a ≤ S4x8x64x128x128.size a
  hwx0_0 : ∀ i : grid0.Coords, EltTy.bits .f32 = 32 ∨ (Rect.block (s := S4x8x64x128x128) S1x8x8x128x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x8x128x128.size a ≤ S4x1x64x128x128.size a
  hwx0_1 : ∀ i : grid0.Coords, EltTy.bits .i32 = 32 ∨ (Rect.block (s := S4x1x64x128x128) S1x1x8x128x128.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x8.size a ≤ S4x1x8.size a
  hwx0_2 : ∀ i : grid0.Coords, EltTy.bits .f32 = 32 ∨ (Rect.block (s := S4x1x8) S1x1x8.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x8.size a ≤ S4x1x8.size a
  hwx0_3 : ∀ i : grid0.Coords, EltTy.bits .f32 = 32 ∨ (Rect.block (s := S4x1x8) S1x1x8.size (cc0_transform_3 i) (hinb0_3 i)).WholeWords (EltTy.packing .f32)

variable [Facts₀]

abbrev win0_0 : Pipeline.Window sig grid0 :=
  Pipeline.Window.ofSpec (Memref.whole main_arg0) S1x8x8x128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1x8x128x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x1x8.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x1x8.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x8x64x128x128 : Shape := ⟨5, ![4, 8, 64, 128, 128]⟩
abbrev S4x1x64x128x128 : Shape := ⟨5, ![4, 1, 64, 128, 128]⟩
abbrev S4x64x128x128x8 : Shape := ⟨5, ![4, 64, 128, 128, 8]⟩
abbrev S4194304x8 : Shape := ⟨2, ![4194304, 8]⟩
abbrev S4x64x128x128x1 : Shape := ⟨5, ![4, 64, 128, 128, 1]⟩
abbrev S4194304 : Shape := ⟨1, ![4194304]⟩
abbrev S_ : Shape := ⟨0, ![]⟩
abbrev S4194304x1 : Shape := ⟨2, ![4194304, 1]⟩
abbrev S4194304x1x1 : Shape := ⟨3, ![4194304, 1, 1]⟩
abbrev S1 : Shape := ⟨1, ![1]⟩
abbrev S1x1x1 : Shape := ⟨3, ![1, 1, 1]⟩
abbrev S8 : Shape := ⟨1, ![8]⟩

abbrev nBuf : Space → Nat
  | .hbm => 73
  | .vmem => 0
  | .smem => 0
  | _ => 0

abbrev bufTy : (tb : Table) → Fin (tcTables nBuf tb) → BufTy
  | .hbm, ⟨0, _⟩ => ⟨S4x8x64x128x128, .f32⟩
  | .hbm, ⟨1, _⟩ => ⟨S4x1x64x128x128, .i32⟩
  | .hbm, ⟨2, _⟩ => ⟨S4x64x128x128x8, .f32⟩
  | .hbm, ⟨3, _⟩ => ⟨S4194304x8, .f32⟩
  | .hbm, ⟨4, _⟩ => ⟨S4x64x128x128x1, .i32⟩
  | .hbm, ⟨5, _⟩ => ⟨S4194304, .i32⟩
  | .hbm, ⟨6, _⟩ => ⟨S_, .f32⟩
  | .hbm, ⟨7, _⟩ => ⟨S4194304, .f32⟩
  | .hbm, ⟨8, _⟩ => ⟨S_, .f32⟩
  | .hbm, ⟨9, _⟩ => ⟨S4194304, .f32⟩
  | .hbm, ⟨10, _⟩ => ⟨S4194304, .f32⟩
  | .hbm, ⟨11, _⟩ => ⟨S4194304x1, .f32⟩
  | .hbm, ⟨12, _⟩ => ⟨S4194304x8, .f32⟩
  | .hbm, ⟨13, _⟩ => ⟨S4194304x8, .f32⟩
  | .hbm, ⟨14, _⟩ => ⟨S4194304x8, .f32⟩
  | .hbm, ⟨15, _⟩ => ⟨S_, .f32⟩
  | .hbm, ⟨16, _⟩ => ⟨S4194304, .f32⟩
  | .hbm, ⟨17, _⟩ => ⟨S4194304x1, .f32⟩
  | .hbm, ⟨18, _⟩ => ⟨S4194304x1, .f32⟩
  | .hbm, ⟨19, _⟩ => ⟨S4194304x8, .f32⟩
  | .hbm, ⟨20, _⟩ => ⟨S4194304x8, .f32⟩
  | .hbm, ⟨21, _⟩ => ⟨S4194304x1, .i32⟩
  | .hbm, ⟨22, _⟩ => ⟨S_, .i32⟩
  | .hbm, ⟨23, _⟩ => ⟨S4194304x1, .i32⟩
  | .hbm, ⟨24, _⟩ => ⟨S4194304x1, .i1⟩
  | .hbm, ⟨25, _⟩ => ⟨S_, .i32⟩
  | .hbm, ⟨26, _⟩ => ⟨S4194304x1, .i32⟩
  | .hbm, ⟨27, _⟩ => ⟨S4194304x1, .i32⟩
  | .hbm, ⟨28, _⟩ => ⟨S4194304x1, .i32⟩
  | .hbm, ⟨29, _⟩ => ⟨S4194304x1x1, .i32⟩
  | .hbm, ⟨30, _⟩ => ⟨S1, .i32⟩
  | .hbm, ⟨31, _⟩ => ⟨S_, .i32⟩
  | .hbm, ⟨32, _⟩ => ⟨S4194304x1x1, .i32⟩
  | .hbm, ⟨33, _⟩ => ⟨S4194304x1x1, .i1⟩
  | .hbm, ⟨34, _⟩ => ⟨S1x1x1, .i32⟩
  | .hbm, ⟨35, _⟩ => ⟨S4194304x1x1, .i32⟩
  | .hbm, ⟨36, _⟩ => ⟨S4194304x1x1, .i1⟩
  | .hbm, ⟨37, _⟩ => ⟨S4194304x1x1, .i1⟩
  | .hbm, ⟨38, _⟩ => ⟨S_, .i1⟩
  | .hbm, ⟨39, _⟩ => ⟨S4194304x1, .i1⟩
  | .hbm, ⟨40, _⟩ => ⟨S4194304x1, .f32⟩
  | .hbm, ⟨41, _⟩ => ⟨S_, .f32⟩
  | .hbm, ⟨42, _⟩ => ⟨S4194304x1, .f32⟩
  | .hbm, ⟨43, _⟩ => ⟨S4194304x1, .f32⟩
  | .hbm, ⟨44, _⟩ => ⟨S4194304, .f32⟩
  | .hbm, ⟨45, _⟩ => ⟨S4194304, .f32⟩
  | .hbm, ⟨46, _⟩ => ⟨S_, .f32⟩
  | .hbm, ⟨47, _⟩ => ⟨S8, .f32⟩
  | .hbm, ⟨48, _⟩ => ⟨S4194304x1, .i32⟩
  | .hbm, ⟨49, _⟩ => ⟨S8, .f32⟩
  | .hbm, ⟨50, _⟩ => ⟨S_, .f32⟩
  | .hbm, ⟨51, _⟩ => ⟨S4194304, .f32⟩
  | .hbm, ⟨52, _⟩ => ⟨S_, .f32⟩
  | .hbm, ⟨53, _⟩ => ⟨S8, .f32⟩
  | .hbm, ⟨54, _⟩ => ⟨S4194304x1, .i32⟩
  | .hbm, ⟨55, _⟩ => ⟨S8, .f32⟩
  | .hbm, ⟨56, _⟩ => ⟨S_, .f32⟩
  | .hbm, ⟨57, _⟩ => ⟨S8, .f32⟩
  | .hbm, ⟨58, _⟩ => ⟨S8, .i1⟩
  | .hbm, ⟨59, _⟩ => ⟨S_, .f32⟩
  | .hbm, ⟨60, _⟩ => ⟨S8, .f32⟩
  | .hbm, ⟨61, _⟩ => ⟨S8, .f32⟩
  | .hbm, ⟨62, _⟩ => ⟨S8, .f32⟩
  | .hbm, ⟨63, _⟩ => ⟨S8, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S8, .f32⟩
  | .hbm, ⟨69, _⟩ => ⟨S8, .f32⟩
  | .hbm, ⟨70, _⟩ => ⟨S_, .f32⟩
  | .hbm, ⟨71, _⟩ => ⟨S_, .f32⟩
  | .hbm, ⟨72, _⟩ => ⟨S_, .f32⟩
  | _, _ => ⟨S4x8x64x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_call0_cst : Ref sig .tc := ⟨.hbm, 6, rfl⟩
abbrev main_call0_v0 : Ref sig .tc := ⟨.hbm, 7, rfl⟩
abbrev main_call0_cst_0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_v6 : Ref sig .tc := ⟨.hbm, 14, rfl⟩
abbrev main_call0_cst_1 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_v4 : Ref sig .tc := ⟨.hbm, 20, rfl⟩
abbrev main_v5 : Ref sig .tc := ⟨.hbm, 21, rfl⟩
abbrev main_call1_c : Ref sig .tc := ⟨.hbm, 22, rfl⟩
abbrev main_call1_v0 : Ref sig .tc := ⟨.hbm, 23, rfl⟩
abbrev main_call1_v1 : Ref sig .tc := ⟨.hbm, 24, rfl⟩
abbrev main_call1_c_0 : Ref sig .tc := ⟨.hbm, 25, rfl⟩
abbrev main_call1_v2 : Ref sig .tc := ⟨.hbm, 26, rfl⟩
abbrev main_call1_v3 : Ref sig .tc := ⟨.hbm, 27, rfl⟩
abbrev main_call1_v4 : Ref sig .tc := ⟨.hbm, 28, rfl⟩
abbrev main_call1_v5 : Ref sig .tc := ⟨.hbm, 29, rfl⟩
abbrev main_call1_c_1 : Ref sig .tc := ⟨.hbm, 30, rfl⟩
abbrev main_call1_c_2 : Ref sig .tc := ⟨.hbm, 31, rfl⟩
abbrev main_call1_v6 : Ref sig .tc := ⟨.hbm, 32, rfl⟩
abbrev main_call1_v7 : Ref sig .tc := ⟨.hbm, 33, rfl⟩
abbrev main_call1_v8 : Ref sig .tc := ⟨.hbm, 34, rfl⟩
abbrev main_call1_v9 : Ref sig .tc := ⟨.hbm, 35, rfl⟩
abbrev main_call1_v10 : Ref sig .tc := ⟨.hbm, 36, rfl⟩
abbrev main_call1_v11 : Ref sig .tc := ⟨.hbm, 37, rfl⟩
abbrev main_call1_c_3 : Ref sig .tc := ⟨.hbm, 38, rfl⟩
abbrev main_call1_v12 : Ref sig .tc := ⟨.hbm, 39, rfl⟩
abbrev main_call1_v13 : Ref sig .tc := ⟨.hbm, 40, rfl⟩
abbrev main_call1_cst : Ref sig .tc := ⟨.hbm, 41, rfl⟩
abbrev main_call1_v14 : Ref sig .tc := ⟨.hbm, 42, rfl⟩
abbrev main_v6 : Ref sig .tc := ⟨.hbm, 43, rfl⟩
abbrev main_v7 : Ref sig .tc := ⟨.hbm, 44, rfl⟩
abbrev main_v8 : Ref sig .tc := ⟨.hbm, 45, rfl⟩
abbrev main_cst : Ref sig .tc := ⟨.hbm, 46, rfl⟩
abbrev main_v9 : Ref sig .tc := ⟨.hbm, 47, rfl⟩
abbrev main_v10 : Ref sig .tc := ⟨.hbm, 48, rfl⟩
abbrev main_v11 : Ref sig .tc := ⟨.hbm, 49, rfl⟩
abbrev main_cst_0 : Ref sig .tc := ⟨.hbm, 50, rfl⟩
abbrev main_v12 : Ref sig .tc := ⟨.hbm, 51, rfl⟩
abbrev main_cst_1 : Ref sig .tc := ⟨.hbm, 52, rfl⟩
abbrev main_v13 : Ref sig .tc := ⟨.hbm, 53, rfl⟩
abbrev main_v14 : Ref sig .tc := ⟨.hbm, 54, rfl⟩
abbrev main_v15 : Ref sig .tc := ⟨.hbm, 55, rfl⟩
abbrev main_cst_2 : Ref sig .tc := ⟨.hbm, 56, rfl⟩
abbrev main_v16 : Ref sig .tc := ⟨.hbm, 57, rfl⟩
abbrev main_v17 : Ref sig .tc := ⟨.hbm, 58, rfl⟩
abbrev main_cst_3 : Ref sig .tc := ⟨.hbm, 59, rfl⟩
abbrev main_v18 : Ref sig .tc := ⟨.hbm, 60, rfl⟩
abbrev main_v19 : Ref sig .tc := ⟨.hbm, 61, rfl⟩
abbrev main_v20 : Ref sig .tc := ⟨.hbm, 62, rfl⟩
abbrev main_v21 : Ref sig .tc := ⟨.hbm, 63, rfl⟩
abbrev main_cst_4 : Ref sig .tc := ⟨.hbm, 64, rfl⟩
abbrev main_v22 : Ref sig .tc := ⟨.hbm, 65, rfl⟩
abbrev main_cst_5 : Ref sig .tc := ⟨.hbm, 66, rfl⟩
abbrev main_call2_v0 : Ref sig .tc := ⟨.hbm, 67, rfl⟩
abbrev main_call2_v1 : Ref sig .tc := ⟨.hbm, 68, rfl⟩
abbrev main_v23 : Ref sig .tc := ⟨.hbm, 69, rfl⟩
abbrev main_cst_6 : Ref sig .tc := ⟨.hbm, 70, rfl⟩
abbrev main_v24 : Ref sig .tc := ⟨.hbm, 71, rfl⟩
abbrev main_v25 : Ref sig .tc := ⟨.hbm, 72, rfl⟩

abbrev nD : Nat := 1
abbrev τ : Topo := Topo.v7x

variable {F : FTy → Type} [FloatOps F]

class Facts₀ : Prop where
  transposes_S4x8x64x128x128_S4x64x128x128x8_0_2_3_4_1 : S4x8x64x128x128.Transposes [0, 2, 3, 4, 1] S4x64x128x128x8
  shapeCasts_S4x64x128x128x8_S4194304x8 : S4x64x128x128x8.ShapeCasts S4194304x8
  transposes_S4x1x64x128x128_S4x64x128x128x1_0_2_3_4_1 : S4x1x64x128x128.Transposes [0, 2, 3, 4, 1] S4x64x128x128x1
  shapeCasts_S4x64x128x128x1_S4194304 : S4x64x128x128x1.ShapeCasts S4194304
  reducesTo_S4194304x8_S4194304_d1 : S4194304x8.ReducesTo [1] S4194304
  h_S_ : 0 < S_.numel
  bcast_S_S4194304 : S_.BroadcastsInDim S4194304 (![] : Fin 0 → Fin S4194304.rank)
  bcast_S4194304_S4194304x1_0 : S4194304.BroadcastsInDim S4194304x1 (![0] : Fin 1 → Fin S4194304x1.rank)
  bcast_S4194304x1_S4194304x8_0_1 : S4194304x1.BroadcastsInDim S4194304x8 (![0, 1] : Fin 2 → Fin S4194304x8.rank)
  bcast_S_S4194304x1 : S_.BroadcastsInDim S4194304x1 (![] : Fin 0 → Fin S4194304x1.rank)
  shapeCasts_S4194304x1_S4194304x1x1 : S4194304x1.ShapeCasts S4194304x1x1
  bcast_S_S4194304x1x1 : S_.BroadcastsInDim S4194304x1x1 (![] : Fin 0 → Fin S4194304x1x1.rank)
  bcast_S1_S1x1x1_2 : S1.BroadcastsInDim S1x1x1 (![2] : Fin 1 → Fin S1x1x1.rank)
  bcast_S1x1x1_S4194304x1x1_0_1_2 : S1x1x1.BroadcastsInDim S4194304x1x1 (![0, 1, 2] : Fin 3 → Fin S4194304x1x1.rank)
  reducesTo_S4194304x1x1_S4194304x1_d2 : S4194304x1x1.ReducesTo [2] S4194304x1
  shapeCasts_S4194304x1_S4194304 : S4194304x1.ShapeCasts S4194304
  bcast_S_S8 : S_.BroadcastsInDim S8 (![] : Fin 0 → Fin S8.rank)
  reducesTo_S8_S_d0 : S8.ReducesTo [0] S_
  gather_S4194304x8_S4194304x1x1_S4194304x1_n_1_0_0_1_2_11_wf : GatherDims.WF S4194304x8 S4194304x1x1 S4194304x1 [] [1] [0] [1] [0] 2 ![1, 1]
  scatter_S8_S4194304x1_S4194304_n_0_0_1_wf : ScatterDims.WF S8 S4194304x1 S4194304 [] [0] [0] 1

variable [Facts₀]

def gather_S4194304x8_S4194304x1x1_S4194304x1_n_1_0_0_1_2_11 : GatherDims S4194304x8 S4194304x1x1 S4194304x1 where
  offsetDims := []
  collapsedSliceDims := [1]
  operandBatchingDims := [0]
  startIndicesBatchingDims := [0]
  startIndexMap := [1]
  indexVectorDim := 2
  sliceSizes := ![1, 1]
  wf := gather_S4194304x8_S4194304x1x1_S4194304x1_n_1_0_0_1_2_11_wf
def scatter_S8_S4194304x1_S4194304_n_0_0_1 : ScatterDims S8 S4194304x1 S4194304 where
  updateWindowDims := []
  insertedWindowDims := [0]
  scatterDimsToOperandDims := [0]
  indexVectorDim := 1
  wf := scatter_S8_S4194304x1_S4194304_n_0_0_1_wf

class Facts : Prop extends Facts₀ where

variable [Facts]
-- ==== Proof.KPieces.lean ====
/-
  What one grid point leaves in the two accumulators. At a point that opens a batch row (the depth-chunk coordinate is
  zero) the body first stores zeros, reads them back and adds the point's partial sums: the accumulators end at
  `0 + partial`. At every other point it adds the partial sums to what the point before left.
-/
import proofs.«429569_j28656021799139_1_alg».proof.Proof.Gen.KernelIdeal.Frame
import Idealize.ShloMosaic.Lib.Pipeline.Value
import Idealize.ShloMosaic.Lib.Tactic

noncomputable section

namespace Cert.KernelIdeal.Pieces

open Idealize.ShloMosaic Idealize.ShloMosaic.TcCoe Idealize.SL.Sem
open Cert.KernelIdeal Cert.KernelIdeal.Gen

variable {F : FTy → Type} [FloatOps F]

theorem hz3 : (![0, 0, 0] : Fin 3 → Nat) = fun _ => 0 := funext fun a => by fin_cases a <;> rfl
theorem hz5 : (![0, 0, 0, 0, 0] : Fin 5 → Nat) = fun _ => 0 := funext fun a => by fin_cases a <;> rfl

/-- A point inside a batch row: the loss accumulator ends at what it held plus the point's partial loss sums. -/
theorem lossAcc_inside (c : Dev nD) (i : grid0.Coords) (a2 : Memref sig .tc .vmem S1x8x8x128x128 .f32) (h2 : a2.IsWhole)
    (a3 : Memref sig .tc .vmem S1x1x8x128x128 .i32) (h3 : a3.IsWhole) (a4 : Memref sig .tc .vmem S1x1x8 .f32) (h4 : a4.IsWhole)
    (a5 : Memref sig .tc .vmem S1x1x8 .f32) (h5 : a5.IsWhole) (hc : ¬cond0_0 i)
    (x0 : Vec F S1x8x8x128x128 .f32) (x1 : Vec F S1x1x8x128x128 .i32) (xo2 xo3 : Vec F S1x1x8 .f32) :
    out0_B_2 c i a2 h2 a3 h3 a4 h4 a5 h5 hc x0 x1 xo2 xo3 = k0_pay1 (k0_pay6 x0 x1) xo2 := by
  unfold out0_B_2
  rw [View.read_writes_eq_canon _ _ _ (cover0_B_2 c i a2 h2 a3 h3 a4 h4 a5 h5 hc x0 x1 xo2 xo3)]
  unfold kernelRun0_B
  dsimp only
  sl_unfold_words
  rw [View.canon_unit_zero hz3]
  simp only [View.readAt_eq_ld, h2.read_unread, h3.read_unread, h4.read_unread, h5.read_unread,
    View.ld_unit_zero (S := S1x8x8x128x128) hz5, View.ld_unit_zero (S := S1x1x8x128x128) hz5, View.ld_unit_zero (S := S1x1x8) hz3]

/-- A point inside a batch row: the count accumulator ends at what it held plus the point's partial counts. -/
theorem countAcc_inside (c : Dev nD) (i : grid0.Coords) (a2 : Memref sig .tc .vmem S1x8x8x128x128 .f32) (h2 : a2.IsWhole)
    (a3 : Memref sig .tc .vmem S1x1x8x128x128 .i32) (h3 : a3.IsWhole) (a4 : Memref sig .tc .vmem S1x1x8 .f32) (h4 : a4.IsWhole)
    (a5 : Memref sig .tc .vmem S1x1x8 .f32) (h5 : a5.IsWhole) (hc : ¬cond0_0 i)
    (x0 : Vec F S1x8x8x128x128 .f32) (x1 : Vec F S1x1x8x128x128 .i32) (xo2 xo3 : Vec F S1x1x8 .f32) :
    out0_B_3 c i a2 h2 a3 h3 a4 h4 a5 h5 hc x0 x1 xo2 xo3 = k0_pay2 (k0_pay7 x1) xo3 := by
  unfold out0_B_3
  rw [View.read_writes_eq_canon _ _ _ (cover0_B_3 c i a2 h2 a3 h3 a4 h4 a5 h5 hc x0 x1 xo2 xo3)]
  unfold kernelRun0_B
  dsimp only
  sl_unfold_words
  rw [View.canon_unit_zero hz3]
  simp only [View.readAt_eq_ld, h2.read_unread, h3.read_unread, h4.read_unread, h5.read_unread,
    View.ld_unit_zero (S := S1x8x8x128x128) hz5, View.ld_unit_zero (S := S1x1x8x128x128) hz5, View.ld_unit_zero (S := S1x1x8) hz3]

/-- A point that opens a batch row: the loss accumulator ends at the zeros just stored plus the point's partial loss
    sums. -/
theorem lossAcc_open (c : Dev nD) (i : grid0.Coords) (a2 : Memref sig .tc .vmem S1x8x8x128x128 .f32) (h2 : a2.IsWhole)
    (a3 : Memref sig .tc .vmem S1x1x8x128x128 .i32) (h3 : a3.IsWhole) (a4 : Memref sig .tc .vmem S1x1x8 .f32) (h4 : a4.IsWhole)
    (a5 : Memref sig .tc .vmem S1x1x8 .f32) (h5 : a5.IsWhole) (hc : cond0_0 i)
    (x0 : Vec F S1x8x8x128x128 .f32) (x1 : Vec F S1x1x8x128x128 .i32) :
    out0_A_2 c i a2 h2 a3 h3 a4 h4 a5 h5 hc x0 x1 = k0_pay1 (k0_pay6 x0 x1) (k0_pay3 (F := F)) := by
  unfold out0_A_2
  rw [View.read_writes_eq_canon _ _ _ (cover0_A_2 c i a2 h2 a3 h3 a4 h4 a5 h5 hc x0 x1)]
  unfold kernelRun0_A
  dsimp only
  sl_unfold_words
  rw [View.canon_cons_unit_zero (S := S1x1x8) hz3, View.readCov_unit_zero (S := S1x1x8) _ hz3]
  simp only [View.readAt_eq_ld, h2.read_unread, h3.read_unread, h4.read_unread, h5.read_unread,
    View.ld_unit_zero (S := S1x8x8x128x128) hz5, View.ld_unit_zero (S := S1x1x8x128x128) hz5, View.ld_unit_zero (S := S1x1x8) hz3]

/-- A point that opens a batch row: the count accumulator ends at the zeros just stored plus the point's partial
    counts. -/
theorem countAcc_open (c : Dev nD) (i : grid0.Coords) (a2 : Memref sig .tc .vmem S1x8x8x128x128 .f32) (h2 : a2.IsWhole)
    (a3 : Memref sig .tc .vmem S1x1x8x128x128 .i32) (h3 : a3.IsWhole) (a4 : Memref sig .tc .vmem S1x1x8 .f32) (h4 : a4.IsWhole)
    (a5 : Memref sig .tc .vmem S1x1x8 .f32) (h5 : a5.IsWhole) (hc : cond0_0 i)
    (x0 : Vec F S1x8x8x128x128 .f32) (x1 : Vec F S1x1x8x128x128 .i32) :
    out0_A_3 c i a2 h2 a3 h3 a4 h4 a5 h5 hc x0 x1 = k0_pay2 (k0_pay7 x1) (k0_pay4 (F := F)) := by
  unfold out0_A_3
  rw [View.read_writes_eq_canon _ _ _ (cover0_A_3 c i a2 h2 a3 h3 a4 h4 a5 h5 hc x0 x1)]
  unfold kernelRun0_A
  dsimp only
  sl_unfold_words
  rw [View.canon_cons_unit_zero (S := S1x1x8) hz3, View.readCov_unit_zero (S := S1x1x8) _ hz3]
  simp only [View.readAt_eq_ld, h2.read_unread, h3.read_unread, h4.read_unread, h5.read_unread,
    View.ld_unit_zero (S := S1x8x8x128x128) hz5, View.ld_unit_zero (S := S1x1x8x128x128) hz5, View.ld_unit_zero (S := S1x1x8) hz3]

end Cert.KernelIdeal.Pieces

end
-- ==== Proof.KAccum.lean ====
/-
  The two accumulators point by point. Grid point `8 b + j` is chunk `j` of batch row `b`. After the body at that
  point the loss accumulator holds, at class `k`, the sum of the partial loss sums of the points `8 b`, …, `8 b + j`, and
  the count accumulator the sum of their partial counts: the row's first point stores zeros and adds its partial sums,
  every later point adds its own to what the point before left.
-/
import proofs.«429569_j28656021799139_1_alg».proof.Proof.KPieces
import Idealize.ShloMosaic.Lib.ValueLayout
import Idealize.ShloMosaic.PureOps.Ideal.Laws

noncomputable section

open scoped BigOperators

namespace Cert.KernelIdeal.Accum

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ)

/-- The scores' and the labels' block at a grid point, at their literal types. -/
abbrev xblk (c : Dev nD) (t : Fin cfg0.N) : Vec Ideal S1x8x8x128x128 .f32 := iblk m c 0 t
abbrev lblk (c : Dev nD) (t : Fin cfg0.N) : Vec Ideal S1x1x8x128x128 .i32 := iblk m c 1 t

/-- Point `n`'s partial loss sum and partial count for class `k` (zero past the grid). -/
def partLoss (c : Dev nD) (k : Fin 8) (n : ℕ) : EReal :=
  if h : n < cfg0.N then k0_pay6 (F := Ideal) (xblk m c ⟨n, h⟩) (lblk m c ⟨n, h⟩) (ix1 k) else 0
def partCount (c : Dev nD) (k : Fin 8) (n : ℕ) : EReal :=
  if h : n < cfg0.N then k0_pay7 (F := Ideal) (lblk m c ⟨n, h⟩) (ix1 k) else 0

/-- An accumulator's update read at class `k`: what it held there plus the partial sum. -/
theorem pay1_apply (v27 : FVec Ideal S8 .f32) (v33 : Vec Ideal S1x1x8 .f32) (k : Fin 8) :
    k0_pay1 (F := Ideal) v27 v33 (ix3 0 0 k) = v33 (ix3 0 0 k) + v27 (ix1 k) := by
  unfold k0_pay1
  rw [shapeCast_ab_1ab_apply, addf_apply, shapeCast_1ab_ab_apply, shapeCast_a_1a_apply]
theorem pay2_apply (v32 : FVec Ideal S8 .f32) (v40 : Vec Ideal S1x1x8 .f32) (k : Fin 8) :
    k0_pay2 (F := Ideal) v32 v40 (ix3 0 0 k) = v40 (ix3 0 0 k) + v32 (ix1 k) := by
  unfold k0_pay2
  rw [shapeCast_ab_1ab_apply, addf_apply, shapeCast_1ab_ab_apply, shapeCast_a_1a_apply]

/-- The zeros a row's first point stores. -/
theorem pay3_apply (k : Fin 8) : k0_pay3 (F := Ideal) (ix3 0 0 k) = 0 := by
  unfold k0_pay3
  rw [shapeCast_ab_1ab_apply, broadcast_apply]
  exact Ideal.ofBits_zero_f32
theorem pay4_apply (k : Fin 8) : k0_pay4 (F := Ideal) (ix3 0 0 k) = 0 := by
  unfold k0_pay4
  rw [shapeCast_ab_1ab_apply, broadcast_apply]
  exact Ideal.ofBits_zero_f32

/-- The accumulators after point `n` do not depend on how `n` is written. -/
theorem outsAt0_congr (c : Dev nD) {n n' : ℕ} (e : n = n') (h : n < cfg0.N) (h' : n' < cfg0.N) :
    outsAt0 m c n h = outsAt0 m c n' h' := by
  subst e; rfl

/-- THE RUNNING SUMS: after chunk `j` of batch row `b` the accumulators hold the sums over the chunks `0, …, j`. -/
theorem outsAt_eq (c : Dev nD) (k : Fin 8) (b : ℕ) (hb : b < 4) : ∀ (j : ℕ) (hj : j < 8) (hn : 8 * b + j < cfg0.N),
    (outsAt0 m c (8 * b + j) hn).1 (ix3 0 0 k) = ∑ i ∈ Finset.range (j + 1), partLoss m c k (8 * b + i)
    ∧ (outsAt0 m c (8 * b + j) hn).2 (ix3 0 0 k) = ∑ i ∈ Finset.range (j + 1), partCount m c k (8 * b + i)
  | 0, hj, hn => by
    have h0 : (⟨8 * b + 0, hn⟩ : Fin cfg0.N).val % 8 = 0 := by dsimp only; omega
    rw [outsAt0_A m c ⟨8 * b + 0, hn⟩ h0]
    dsimp only
    rw [Pieces.lossAcc_open, Pieces.countAcc_open, pay1_apply, pay2_apply, pay3_apply, pay4_apply,
      Finset.sum_range_one, Finset.sum_range_one]
    unfold partLoss partCount
    rw [dif_pos hn, dif_pos hn]
    exact ⟨zero_add _, zero_add _⟩
  | j + 1, hj, hn => by
    have h0 : ¬(⟨8 * b + (j + 1), hn⟩ : Fin cfg0.N).val % 8 = 0 := by dsimp only; omega
    have hp : 8 * b + j < cfg0.N := by omega
    have ih := outsAt_eq c k b hb j (by omega) hp
    rw [outsAt0_B m c ⟨8 * b + (j + 1), hn⟩ h0]
    dsimp only
    rw [Pieces.lossAcc_inside, Pieces.countAcc_inside, pay1_apply, pay2_apply,
      outsAt0_congr m c (show 8 * b + (j + 1) - 1 = 8 * b + j by omega) _ hp, ih.1, ih.2,
      Finset.sum_range_succ _ (j + 1), Finset.sum_range_succ _ (j + 1)]
    unfold partLoss partCount
    rw [dif_pos hn, dif_pos hn]
    exact ⟨rfl, rfl⟩

end Cert.KernelIdeal.Accum

end
-- ==== Proof.KFinal.lean ====
/-
  The two result arrays of the region. Output block `b` — the eight sums, or counts, of batch row `b` — is written back
  once, after the row's last chunk; the blocks tile the [4, 1, 8] arrays. So each array ends holding, at (b, 0, k), the
  sum over the row's eight chunks of the chunks' partial sums for class `k`.
-/
import proofs.«429569_j28656021799139_1_alg».proof.Proof.KAccum

noncomputable section

open scoped BigOperators

namespace Cert.KernelIdeal.Final

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Accum

variable (m : (ℓ : Loc nD τ sig) → Buf (Elt Ideal) ℓ)

/-- Batch row `b`'s loss sum and count for class `k`: the sums over the row's eight chunks. -/
def rowLoss (c : Dev nD) (k : Fin 8) (b : ℕ) : EReal := ∑ i ∈ Finset.range 8, partLoss m c k (8 * b + i)
def rowCount (c : Dev nD) (k : Fin 8) (b : ℕ) : EReal := ∑ i ∈ Finset.range 8, partCount m c k (8 * b + i)

/-- The arrays' final contents. -/
def lossArr (c : Dev nD) : Buf (Elt Ideal) ((c : Thread nD τ).loc main_v0_0) :=
  fun i => rowLoss m c ⟨(i 2).val, (i 2).isLt⟩ (i 0).val
def countArr (c : Dev nD) : Buf (Elt Ideal) ((c : Thread nD τ).loc main_v0_1) :=
  fun i => rowCount m c ⟨(i 2).val, (i 2).isLt⟩ (i 0).val

/-- The output windows' block indices, decided over the grid: block (t / 8, 0, 0) at point `t`. -/
theorem idx_facts : ∀ t : Fin cfg0.N, win0_2.index t (0 : Fin 3) = t.val / 8 ∧ win0_2.index t (1 : Fin 3) = 0
    ∧ win0_2.index t (2 : Fin 3) = 0 ∧ win0_3.index t (0 : Fin 3) = t.val / 8 ∧ win0_3.index t (1 : Fin 3) = 0
    ∧ win0_3.index t (2 : Fin 3) = 0 :=
  (by decide +kernel : ∀ t : Fin grid0.N, win0_2.index t (0 : Fin 3) = t.val / 8 ∧ win0_2.index t (1 : Fin 3) = 0
    ∧ win0_2.index t (2 : Fin 3) = 0 ∧ win0_3.index t (0 : Fin 3) = t.val / 8 ∧ win0_3.index t (1 : Fin 3) = 0
    ∧ win0_3.index t (2 : Fin 3) = 0)

/-- What the accumulators hold after a row's last chunk. -/
theorem acc_last (c : Dev nD) (t : Fin cfg0.N) (h7 : t.val % 8 = 7) (y : S1x1x8.Idx) :
    (outsAt0 m c t.val t.isLt).1 y = rowLoss m c (y 2) (t.val / 8)
    ∧ (outsAt0 m c t.val t.isLt).2 y = rowCount m c (y 2) (t.val / 8) := by
  have hN : t.val < 32 := lt_of_lt_of_eq t.isLt (show cfg0.N = 32 from N_0)
  obtain ⟨u0, u1, k, rfl⟩ : ∃ (u0 u1 : Fin 1) (k : Fin 8), y = ix3 u0 u1 k := ⟨y 0, y 1, y 2, eq_ix3 y⟩
  obtain rfl : u0 = 0 := Subsingleton.elim _ _
  obtain rfl : u1 = 0 := Subsingleton.elim _ _
  have hn : 8 * (t.val / 8) + 7 < cfg0.N := lt_of_lt_of_eq (by omega : 8 * (t.val / 8) + 7 < 32) N_0.symm
  rw [outsAt0_congr m c (show t.val = 8 * (t.val / 8) + 7 by omega) t.isLt hn]
  exact outsAt_eq m c k (t.val / 8) (by omega) 7 (by omega) hn

/-- What a write-back of the loss window writes is the block of `lossArr`. -/
theorem flushed_loss (c : Dev nD) (t : Fin cfg0.N) (hf : (cfg0.win 2).flush t = true) :
    (dats m 0 c).flushed 2 t = ((cfg0.win 2).blk t).view.read (Elt Ideal) (lossArr m c) := by
  have h7 : t.val % 8 = 7 := (flush0_2 t).mp hf
  obtain ⟨e0, e1, e2, -, -, -⟩ := idx_facts t
  show (cfg0.win 2).cut (grid0.coords t) ((dats m 0 c).after 2 t) = _
  rw [after0_2]
  funext y
  refine ((acc_last m c t h7 y).1).trans ?_
  show _ = lossArr m c (((cfg0.win 2).blk t).view.emb y)
  unfold lossArr
  have hk : y 2 = ⟨((((cfg0.win 2).blk t).view.emb y) 2).val, ((((cfg0.win 2).blk t).view.emb y) 2).isLt⟩ :=
    Fin.ext (by show (y 2).val = win0_2.index t (2 : Fin 3) * 8 + 1 * (y 2).val; omega)
  have hb : t.val / 8 = ((((cfg0.win 2).blk t).view.emb y) 0).val := by
    show t.val / 8 = win0_2.index t (0 : Fin 3) * 1 + 1 * (y 0).val
    have : (y 0).val < 1 := (y 0).isLt
    omega
  rw [hk, hb]
  rfl

/-- What a write-back of the count window writes is the block of `countArr`. -/
theorem flushed_count (c : Dev nD) (t : Fin cfg0.N) (hf : (cfg0.win 3).flush t = true) :
    (dats m 0 c).flushed 3 t = ((cfg0.win 3).blk t).view.read (Elt Ideal) (countArr m c) := by
  have h7 : t.val % 8 = 7 := (flush0_3 t).mp hf
  obtain ⟨-, -, -, e0, e1, e2⟩ := idx_facts t
  show (cfg0.win 3).cut (grid0.coords t) ((dats m 0 c).after 3 t) = _
  rw [after0_3]
  funext y
  refine ((acc_last m c t h7 y).2).trans ?_
  show _ = countArr m c (((cfg0.win 3).blk t).view.emb y)
  unfold countArr
  have hk : y 2 = ⟨((((cfg0.win 3).blk t).view.emb y) 2).val, ((((cfg0.win 3).blk t).view.emb y) 2).isLt⟩ :=
    Fin.ext (by show (y 2).val = win0_3.index t (2 : Fin 3) * 8 + 1 * (y 2).val; omega)
  have hb : t.val / 8 = ((((cfg0.win 3).blk t).view.emb y) 0).val := by
    show t.val / 8 = win0_3.index t (0 : Fin 3) * 1 + 1 * (y 0).val
    have : (y 0).val < 1 := (y 0).isLt
    omega
  rw [hk, hb]
  rfl

/-- Row `b`'s last point. -/
def lastPoint (b : ℕ) (hb : b < 4) : Fin cfg0.N := ⟨8 * b + 7, by rw [show cfg0.N = 32 from N_0]; omega⟩

/-- Every index of the loss array is in the block its row's last point writes back. -/
theorem cover_loss (i : S4x1x8.Idx) :
    ∃ t : Fin cfg0.N, (cfg0.win 2).flush t = true ∧ i ∈ ((cfg0.win 2).blk t).view.set := by
  have h0 : (i 0).val < 4 := (i 0).isLt
  have h1 : (i 1).val < 1 := (i 1).isLt
  have h2 : (i 2).val < 8 := (i 2).isLt
  refine ⟨lastPoint (i 0).val h0, (flush0_2 _).mpr (by show (8 * (i 0).val + 7) % 8 = 7; omega), ?_⟩
  obtain ⟨e0, e1, e2, -, -, -⟩ := idx_facts (lastPoint (i 0).val h0)
  have ev : (lastPoint (i 0).val h0).val = 8 * (i 0).val + 7 := rfl
  show i ∈ ((View.whole main_v0_0).slice (win0_2.rect (lastPoint (i 0).val h0))).set
  rw [View.set_slice_whole, Rect.mem_set_unit]
  intro a
  match a with
  | ⟨0, _⟩ => show win0_2.index (lastPoint (i 0).val h0) (0 : Fin 3) * 1 ≤ (i 0).val ∧ (i 0).val < win0_2.index (lastPoint (i 0).val h0) (0 : Fin 3) * 1 + 1; omega
  | ⟨1, _⟩ => show win0_2.index (lastPoint (i 0).val h0) (1 : Fin 3) * 1 ≤ (i 1).val ∧ (i 1).val < win0_2.index (lastPoint (i 0).val h0) (1 : Fin 3) * 1 + 1; omega
  | ⟨2, _⟩ => show win0_2.index (lastPoint (i 0).val h0) (2 : Fin 3) * 8 ≤ (i 2).val ∧ (i 2).val < win0_2.index (lastPoint (i 0).val h0) (2 : Fin 3) * 8 + 8; omega

/-- Every index of the count array is in the block its row's last point writes back. -/
theorem cover_count (i : S4x1x8.Idx) :
    ∃ t : Fin cfg0.N, (cfg0.win 3).flush t = true ∧ i ∈ ((cfg0.win 3).blk t).view.set := by
  have h0 : (i 0).val < 4 := (i 0).isLt
  have h1 : (i 1).val < 1 := (i 1).isLt
  have h2 : (i 2).val < 8 := (i 2).isLt
  refine ⟨lastPoint (i 0).val h0, (flush0_3 _).mpr (by show (8 * (i 0).val + 7) % 8 = 7; omega), ?_⟩
  obtain ⟨-, -, -, e0, e1, e2⟩ := idx_facts (lastPoint (i 0).val h0)
  have ev : (lastPoint (i 0).val h0).val = 8 * (i 0).val + 7 := rfl
  show i ∈ ((View.whole main_v0_1).slice (win0_3.rect (lastPoint (i 0).val h0))).set
  rw [View.set_slice_whole, Rect.mem_set_unit]
  intro a
  match a with
  | ⟨0, _⟩ => show win0_3.index (lastPoint (i 0).val h0) (0 : Fin 3) * 1 ≤ (i 0).val ∧ (i 0).val < win0_3.index (lastPoint (i 0).val h0) (0 : Fin 3) * 1 + 1; omega
  | ⟨1, _⟩ => show win0_3.index (lastPoint (i 0).val h0) (1 : Fin 3) * 1 ≤ (i 1).val ∧ (i 1).val < win0_3.index (lastPoint (i 0).val h0) (1 : Fin 3) * 1 + 1; omega
  | ⟨2, _⟩ => show win0_3.index (lastPoint (i 0).val h0) (2 : Fin 3) * 8 ≤ (i 2).val ∧ (i 2).val < win0_3.index (lastPoint (i 0).val h0) (2 : Fin 3) * 8 + 8; omega

/-- THE ARRAYS after the region. -/
theorem final_loss (c : Dev nD) : (dats m 0 c).arrAt 2 cfg0.N = lossArr m c :=
  (dats m 0 c).arrAt_eq_of_cover 2 (lossArr m c) (flushed_loss m c) (cover_loss)
theorem final_count (c : Dev nD) : (dats m 0 c).arrAt 3 cfg0.N = countArr m c :=
  (dats m 0 c).arrAt_eq_of_cover 3 (countArr m c) (flushed_count m c) (cover_count)

end Cert.KernelIdeal.Final

end
-- ==== Proof.Spec.lean ====
/-
  What the two programs compute, stated once over the argument arrays.

  The logits `x : [4, 8, 64, 128, 128]` hold, at each of the 4·64·128·128 positions (b, d, h, w), a column of eight
  class scores `x[b, ·, d, h, w]`; the labels `lab : [4, 1, 64, 128, 128]` hold one 32-bit word per position. For a
  column `col` the log-softmax at class `c` is `(col c − M) − log ∑ₖ exp (col k − M)` with `M` the column's maximum
  (folded from −∞). A position whose label word is the class number `c` contributes `0 − logSoftmax col c` to the
  class's loss sum and `1` to its count; every other position (a label of another class, or no class at all)
  contributes `0` to both. The result is a function (`tail`) of the eight sums and the eight counts only: the mean over
  the classes present of each class's mean loss.
-/
import Idealize.ShloMosaic.PureOps.Ideal
import Idealize.ShloMosaic.PureOps.Ideal.Laws
import Idealize.ShloMosaic.PureOps.Vector
import Idealize.ShloMosaic.Lib.ValueIdx

noncomputable section

open scoped BigOperators

namespace Cert.Spec

open Idealize.ShloMosaic Idealize.ShloMosaic.ValueIdx

/-- The logits' shape, the labels' shape, a vector of eight, a scalar. -/
abbrev SX : Shape := ⟨5, ![4, 8, 64, 128, 128]⟩
abbrev SL : Shape := ⟨5, ![4, 1, 64, 128, 128]⟩
abbrev S8 : Shape := ⟨1, ![8]⟩
abbrev S0 : Shape := ⟨0, ![]⟩

/-- A column's maximum, folded from −∞. -/
def colMax (col : Fin 8 → EReal) : EReal :=
  (Finset.univ : Finset (Fin 8)).fold max (Ideal.ofBits .f32 0xFF800000#32) col

/-- The log-softmax of a column at class `c`. -/
def logSoftmax (col : Fin 8 → EReal) (c : Fin 8) : EReal :=
  (col c - colMax col) - Ideal.log (∑ k : Fin 8, Ideal.exp (col k - colMax col))

/-- What position (b, d, h, w) adds to class `c`'s loss sum. -/
def lossTerm (x : SX.Idx → EReal) (lab : SL.Idx → BitVec 32) (c : Fin 8) (b : Fin 4) (d : Fin 64) (h w : Fin 128) : EReal :=
  if lab (ix5 b 0 d h w) = BitVec.ofNat 32 c.val then 0 - logSoftmax (fun k => x (ix5 b k d h w)) c else 0

/-- What position (b, d, h, w) adds to class `c`'s count. -/
def countTerm (lab : SL.Idx → BitVec 32) (c : Fin 8) (b : Fin 4) (d : Fin 64) (h w : Fin 128) : EReal :=
  if lab (ix5 b 0 d h w) = BitVec.ofNat 32 c.val then 1 else 0

/-- Class `c`'s loss sum over all positions. -/
def classSum (x : SX.Idx → EReal) (lab : SL.Idx → BitVec 32) (c : Fin 8) : EReal :=
  ∑ b : Fin 4, ∑ d : Fin 64, ∑ h : Fin 128, ∑ w : Fin 128, lossTerm x lab c b d h w

/-- Class `c`'s count over all positions. -/
def classCount (lab : SL.Idx → BitVec 32) (c : Fin 8) : EReal :=
  ∑ b : Fin 4, ∑ d : Fin 64, ∑ h : Fin 128, ∑ w : Fin 128, countTerm lab c b d h w

/-- Position (b, d, h, w) in the row-major numbering of the 4·64·128·128 positions. -/
def pos (b : Fin 4) (d : Fin 64) (h w : Fin 128) : Fin 4194304 :=
  ⟨((b.val * 64 + d.val) * 128 + h.val) * 128 + w.val, by
    have := b.isLt; have := d.isLt; have := h.isLt; have := w.isLt; omega⟩

/-- Depth `8 j + dd`: row `dd` of the `j`-th chunk of eight depths. -/
def depth (j dd : Fin 8) : Fin 64 := ⟨8 * j.val + dd.val, by have := j.isLt; have := dd.isLt; omega⟩

variable {F : FTy → Type} [FloatOps F]

/-- The result from the eight sums `S` and the eight counts `N`: with `present = N > 0`, the sum over the classes
    present of `S / max N 1`, divided by the number of classes present. -/
def tail (hb : S0.BroadcastsInDim S8 (![] : Fin 0 → Fin S8.rank)) (hr : S8.ReducesTo [0] S0) (h0 : 0 < S0.numel)
    (S N : FVec F S8 .f32) : FVec F S0 .f32 :=
  Host.divf
    (Host.reduceAdd
      (select (cmpf .ogt N (broadcastInDim S8 ![] hb (constant S0 .f32 0x00000000#32)))
        (Host.divf S (maximumf N (broadcastInDim S8 ![] hb (constant S0 .f32 0x3F800000#32))))
        (broadcastInDim S8 ![] hb (id (constant S0 .f32 0x00000000#32))))
      (constant S0 .f32 0x00000000#32) hr h0)
    (Host.reduceAdd (uitofp .f32 (cmpf .ogt N (broadcastInDim S8 ![] hb (constant S0 .f32 0x00000000#32))))
      (constant S0 .f32 0x00000000#32) hr h0)

end Cert.Spec

end
-- ==== Proof.LibTRefCast.lean ====
/-
  A VALUE STORED THROUGH A TYPED REFERENCE AND READ BACK IS ITSELF.

  The operations of a module-local function (a `func.call` of the program: jnp.take's `_take`, jnp.where's `_where`, …) are
  built over typed references, and each moves its function's operands and result between the value's type and the
  buffer's own along the reference's type equation (`TRef.ofBuf`, `TRef.toBuf`). Read back after a run of such
  operations (the `*_result` lemmas, `after_results`, `after_results_simp`), every intermediate value therefore sits
  under a pair `x.ofBuf (x.toBuf v)` of the SAME reference, and the term, though equal to the plain composition of the
  operations' functions, is not syntactically so; closing it by `rfl` sends the elaborator through every transport.
  `simp only [TRef.ofBuf_toBuf]` removes the pairs without evaluating any buffer type; what is left is the outermost
  `toBuf` and the `ofBuf` of each buffer the stretch reads, each the identity at a literal reference by `rfl`.
-/
import Idealize.ShloMosaic.Lib.StableHlo

namespace Idealize.ShloMosaic.StableHlo.TRef

variable {sig : RefSig} {Val : EltTy → Type} {T : BufTy}

/-- Storing a value at a typed reference's buffer type and reading it back at the value's type gives the value. -/
theorem ofBuf_toBuf (x : TRef sig T) (v : T.Contents Val) : x.ofBuf (x.toBuf v) = v := by
  obtain ⟨r, h, _, _⟩ := x
  subst h
  rfl

/-- Reading a buffer's contents at the value's type and storing them back gives the contents. -/
theorem toBuf_ofBuf (x : TRef sig T) (v : x.ref.ty.Contents Val) : x.toBuf (x.ofBuf v) = v := by
  obtain ⟨r, h, _, _⟩ := x
  subst h
  rfl

end Idealize.ShloMosaic.StableHlo.TRef
-- ==== Proof.KTail.lean ====
/-
  The host lines after the region: the two arrays are summed over the four batch rows and the result is the `tail` of
  those eight sums and eight counts.
-/
import proofs.«429569_j28656021799139_1_alg».proof.Proof.KFinal
import proofs.«429569_j28656021799139_1_alg».proof.Proof.Spec
import proofs.«429569_j28656021799139_1_alg».proof.Proof.LibTRefCast
import Idealize.ShloMosaic.Lib.StableHlo.Run
import Idealize.ShloMosaic.Lib.Pipeline.FrameSuffix

noncomputable section

open scoped BigOperators

namespace Cert.KernelIdeal.Tail

open Idealize.ShloMosaic Idealize.ShloMosaic.TcCoe Idealize.ShloMosaic.ValueIdx Idealize.SL.Sem Idealize.ShloMosaic.StableHlo
open Idealize.ShloMosaic.Pipeline (Dat)
open Cert.KernelIdeal Cert.KernelIdeal.Gen Cert.KernelIdeal.Accum Cert.KernelIdeal.Final

variable (m : (ℓ : Loc nD τ sig) → Buf (Elt Ideal) ℓ)

/-- The eight sums and the eight counts as the host computes them: each array summed over the batch rows. -/
def hostSums (c : Dev nD) : FVec Ideal S8 .f32 :=
  shapeCast S8 (Host.reduceAdd (lossArr m c) (constant S_ .f32 0x00000000#32) reducesTo_S4x1x8_S1x8_d0 h_S_) shapeCasts_S1x8_S8
def hostCounts (c : Dev nD) : FVec Ideal S8 .f32 :=
  shapeCast S8 (Host.reduceAdd (countArr m c) (constant S_ .f32 0x00000000#32) reducesTo_S4x1x8_S1x8_d0 h_S_) shapeCasts_S1x8_S8

set_option maxHeartbeats 4000000 in
/-- The result buffer after the host lines. -/
theorem tail_eq (c : Dev nD) :
    Pipeline.afterTail₀ cfgs (dats m) 0 (V0 m) [hostOps1, hostOps1_1, hostOps1_2] c main_v14
      = Cert.Spec.tail bcast_S_S8 reducesTo_S8_S_d0 h_S_ (hostSums m c) (hostCounts m c) := by
  unfold Pipeline.afterTail₀
  simp only [hostOps1, hostOps1_1, hostOps1_2, List.flatten_cons, List.flatten_nil, List.append_nil, List.cons_append,
    List.nil_append]
  after_results_simp
  have e2 : Pipeline.withArrays (cfgs 0).spec c (V0 m c) (fun w => (dats m 0 c).arrAt w (cfgs 0).N) (Proc.devRef .tc main_v0_0)
      = lossArr m c := (Pipeline.withArrays_arr spec0 launch0.win.arr_inj c _ _ 2).trans (final_loss m c)
  have e3 : Pipeline.withArrays (cfgs 0).spec c (V0 m c) (fun w => (dats m 0 c).arrAt w (cfgs 0).N) (Proc.devRef .tc main_v0_1)
      = countArr m c := (Pipeline.withArrays_arr spec0 launch0.win.arr_inj c _ _ 3).trans (final_count m c)
  rw [e2, e3]
  simp only [TRef.ofBuf_toBuf, TRef.toBuf_ofBuf]
  unfold Cert.Spec.tail hostSums hostCounts
  rfl

end Cert.KernelIdeal.Tail

end
-- ==== Proof.KPay.lean ====
/-
  The body's two reductions read at a class: what one grid point adds to a class's loss sum and to its count, as sums
  over the block's eight depths, 128 rows and 128 lanes.

  The body views the block of scores as [class, depth, row, lane] = [8, 8, 128, 128]. Each of its three sums drops ONE
  axis (lane, then row, then depth), so at class `c` the result is the triple sum over (dd, h, w) of the summand at
  (c, dd, h, w). The loss summand selects, under the mask bit "the class number equals the label word at (dd, h, w)",
  `0 − logp` against `0`, where `logp` at (c, dd, h, w) is `(x − M) − log ∑ₖ exp (xₖ − M)` over the column of eight scores
  at (dd, h, w), `M` the column's maximum folded from −∞: the specification's `logSoftmax` of that column at `c`. The
  count summand is the same bit widened to a word and converted to a float: `1` where the label word is `c`, else `0`.
-/
import proofs.«429569_j28656021799139_1_alg».proof.Proof.Spec
import proofs.«429569_j28656021799139_1_alg».proof.Proof.Gen.KernelIdeal.Skeleton
import Idealize.ShloMosaic.Lib.Pipeline.Value
import Idealize.ShloMosaic.Lib.ValueLayout
import Idealize.ShloMosaic.PureOps.Ideal.Laws

noncomputable section

open scoped BigOperators

namespace Cert.KernelIdeal.Pay

open Idealize.ShloMosaic Idealize.ShloMosaic.ValueIdx Cert.KernelIdeal Cert.KernelIdeal.Gen Cert.Spec

/-! ## The index a one-axis reduction inserts its coordinate into, by coordinates -/

/-- The lane coordinate `w` inserted into (c, dd, h) is (c, dd, h, w). -/
theorem lift_lane (r : S8x8x128x128.Reduces [3] S8x8x128) (c dd : Fin 8) (h w : Fin 128) :
    r.lift (ix3 c dd h) w = ix4 c dd h w := by
  funext a; refine Fin.ext ?_
  match a with
  | ⟨0, _⟩ => rfl
  | ⟨1, _⟩ => rfl
  | ⟨2, _⟩ => rfl
  | ⟨3, _⟩ => rfl

/-- The row coordinate `h` inserted into (c, dd) is (c, dd, h). -/
theorem lift_row (r : S8x8x128.Reduces [2] S8x8) (c dd : Fin 8) (h : Fin 128) :
    r.lift (ix2 c dd) h = ix3 c dd h := by
  funext a; refine Fin.ext ?_
  match a with
  | ⟨0, _⟩ => rfl
  | ⟨1, _⟩ => rfl
  | ⟨2, _⟩ => rfl

/-- The depth coordinate `dd` inserted into (c) is (c, dd). -/
theorem lift_depth (r : S8x8.Reduces [1] S8) (c dd : Fin 8) :
    r.lift (ix1 c) dd = ix2 c dd := by
  funext a; refine Fin.ext ?_
  match a with
  | ⟨0, _⟩ => rfl
  | ⟨1, _⟩ => rfl

/-- The class coordinate `k` inserted into (dd, h, w) is (k, dd, h, w). -/
theorem lift_class (r : S8x8x128x128.Reduces [0] S8x128x128) (dd : Fin 8) (h w : Fin 128) (k : Fin 8) :
    r.lift (ix3 dd h w) k = ix4 k dd h w := by
  funext a; refine Fin.ext ?_
  match a with
  | ⟨0, _⟩ => rfl
  | ⟨1, _⟩ => rfl
  | ⟨2, _⟩ => rfl
  | ⟨3, _⟩ => rfl

/-! ## The four reductions read at an index -/

/-- A sum over the lane axis at (c, dd, h): the sum over the 128 lanes `w` of the source at (c, dd, h, w). -/
theorem sum_lane (src : FVec Ideal S8x8x128x128 .f32) (r : S8x8x128x128.Reduces [3] S8x8x128) (hφ : FKind.Formats .f32)
    (hacc : (0x00000000#32 : BitVec 32) = FKind.add.neutral .f32 hφ) (c dd : Fin 8) (h : Fin 128) :
    multiReduction .add [3] S8x8x128 src 0x00000000#32 r hφ hacc (ix3 c dd h) = ∑ w : Fin 128, src (ix4 c dd h w) :=
  (Ideal.multiReduction_add_single src _ r hφ hacc _).trans
    (Finset.sum_congr rfl fun w _ => congrArg src (lift_lane r c dd h w))

/-- A sum over the row axis at (c, dd): the sum over the 128 rows `h` of the source at (c, dd, h). -/
theorem sum_row (src : FVec Ideal S8x8x128 .f32) (r : S8x8x128.Reduces [2] S8x8) (hφ : FKind.Formats .f32)
    (hacc : (0x00000000#32 : BitVec 32) = FKind.add.neutral .f32 hφ) (c dd : Fin 8) :
    multiReduction .add [2] S8x8 src 0x00000000#32 r hφ hacc (ix2 c dd) = ∑ h : Fin 128, src (ix3 c dd h) :=
  (Ideal.multiReduction_add_single src _ r hφ hacc _).trans
    (Finset.sum_congr rfl fun h _ => congrArg src (lift_row r c dd h))

/-- A sum over the depth axis at (c): the sum over the 8 depths `dd` of the source at (c, dd). -/
theorem sum_depth (src : FVec Ideal S8x8 .f32) (r : S8x8.Reduces [1] S8) (hφ : FKind.Formats .f32)
    (hacc : (0x00000000#32 : BitVec 32) = FKind.add.neutral .f32 hφ) (c : Fin 8) :
    multiReduction .add [1] S8 src 0x00000000#32 r hφ hacc (ix1 c) = ∑ dd : Fin 8, src (ix2 c dd) :=
  (Ideal.multiReduction_add_single src _ r hφ hacc _).trans
    (Finset.sum_congr rfl fun dd _ => congrArg src (lift_depth r c dd))

/-- A sum over the class axis at (dd, h, w): the sum over the 8 classes `k` of the source at (k, dd, h, w). -/
theorem sum_class (src : FVec Ideal S8x8x128x128 .f32) (r : S8x8x128x128.Reduces [0] S8x128x128) (hφ : FKind.Formats .f32)
    (hacc : (0x00000000#32 : BitVec 32) = FKind.add.neutral .f32 hφ) (dd : Fin 8) (h w : Fin 128) :
    multiReduction .add [0] S8x128x128 src 0x00000000#32 r hφ hacc (ix3 dd h w) = ∑ k : Fin 8, src (ix4 k dd h w) :=
  (Ideal.multiReduction_add_single src _ r hφ hacc _).trans
    (Finset.sum_congr rfl fun k _ => congrArg src (lift_class r dd h w k))

/-- A maximum over the class axis at (dd, h, w): the maximum, folded from −∞, of the column of the source's eight values
    at (·, dd, h, w). -/
theorem max_class (src : FVec Ideal S8x8x128x128 .f32) (r : S8x8x128x128.Reduces [0] S8x128x128) (hφ : FKind.Formats .f32)
    (hacc : (0xFF800000#32 : BitVec 32) = FKind.maximumf.neutral .f32 hφ) (dd : Fin 8) (h w : Fin 128) :
    multiReduction .maximumf [0] S8x128x128 src 0xFF800000#32 r hφ hacc (ix3 dd h w)
      = colMax (fun k => src (ix4 k dd h w)) := by
  refine (Ideal.multiReduction_maximumf_single src _ r hφ hacc _).trans ?_
  have e : src ∘ r.lift (ix3 dd h w) = fun k : Fin 8 => src (ix4 k dd h w) :=
    funext fun k => congrArg src (lift_class r dd h w k)
  rw [e]; rfl

/-! ## The layout operations read at an index -/

section Layout
variable {α : Type}

/-- The block of scores `[1, 8, 8, 128, 128]` viewed `[8, 8, 128, 128]` reads, at (k, dd, h, w), the block at
    (0, k, dd, h, w): the two indices have one row-major position. -/
theorem castScores_apply (x : S1x8x8x128x128.Idx → α) (hc : S1x8x8x128x128.ShapeCasts S8x8x128x128) (k dd : Fin 8)
    (h w : Fin 128) : shapeCast S8x8x128x128 x hc (ix4 k dd h w) = x (ix5 (0 : Fin 1) k dd h w) :=
  shapeCast_apply x hc _ _ (by
    rw [Shape.rowMajor_val_five, Shape.rowMajor_val_four]
    show (((0 * 8 + k.val) * 8 + dd.val) * 128 + h.val) * 128 + w.val = ((k.val * 8 + dd.val) * 128 + h.val) * 128 + w.val
    rw [Nat.zero_mul, Nat.zero_add])

/-- The block of labels `[1, 1, 8, 128, 128]` viewed `[8, 128, 128]` reads, at (dd, h, w), the block at (0, 0, dd, h, w). -/
theorem castLabels_apply (x : S1x1x8x128x128.Idx → α) (hc : S1x1x8x128x128.ShapeCasts S8x128x128) (dd : Fin 8)
    (h w : Fin 128) : shapeCast S8x128x128 x hc (ix3 dd h w) = x (ix5 (0 : Fin 1) (0 : Fin 1) dd h w) :=
  shapeCast_apply x hc _ _ (by
    rw [Shape.rowMajor_val_five, Shape.rowMajor_val_three]
    show (((0 * 1 + 0) * 8 + dd.val) * 128 + h.val) * 128 + w.val = (dd.val * 128 + h.val) * 128 + w.val
    simp only [Nat.zero_mul, Nat.zero_add])

/-- One `[1, 8, 128, 128]` slab broadcast over the eight classes reads, at (c, dd, h, w), the slab at (0, dd, h, w). -/
theorem bcastClass_apply (v : S1x8x128x128.Idx → α) (hb : S1x8x128x128.Broadcasts S8x8x128x128) (c dd : Fin 8)
    (h w : Fin 128) : broadcastTo S8x8x128x128 v hb (ix4 c dd h w) = v (ix4 (0 : Fin 1) dd h w) :=
  broadcastTo_apply v hb _ _ fun a => by
    match a with
    | ⟨0, _⟩ => rfl
    | ⟨1, _⟩ => rfl
    | ⟨2, _⟩ => rfl
    | ⟨3, _⟩ => rfl

/-- A per-position array `[8, 128, 128]` given a leading unit axis and broadcast over the eight classes reads, at
    (c, dd, h, w), the array at (dd, h, w). -/
theorem spread_apply (v : S8x128x128.Idx → α) (hc : S8x128x128.ShapeCasts S1x8x128x128)
    (hb : S1x8x128x128.Broadcasts S8x8x128x128) (c dd : Fin 8) (h w : Fin 128) :
    broadcastTo S8x8x128x128 (shapeCast S1x8x128x128 v hc) hb (ix4 c dd h w) = v (ix3 dd h w) :=
  (bcastClass_apply _ hb c dd h w).trans (shapeCast_abc_1abc_apply v hc 0 dd h w)

end Layout

/-! ## Words: the mask bit and its conversion -/

/-- The bit of "`a` equals `b`" selects the first operand exactly when `b = a`. -/
theorem select_cmpi_eq {α : Type} (a b : BitVec 32) (X Y : α) :
    Scalar.select (IntOp.cmpi .eq a b) X Y = if b = a then X else Y := by
  by_cases hab : b = a
  · subst hab
    have e : IntOp.cmpi .eq b b = 1#1 := by simp [IntOp.cmpi]
    rw [if_pos rfl, e, select_one]
  · have e : IntOp.cmpi .eq a b = 0#1 := by
      have hb : (a == b) = false := beq_eq_false_iff_ne.mpr fun h => hab h.symm
      show BitVec.ofBool (a == b) = 0#1
      rw [hb]; rfl
    rw [if_neg hab, e, select_zero]

/-- The bit of "`a` equals `b`", widened to a word and converted as a signed integer, is `1` when `b = a` and `0` otherwise. -/
theorem sitofp_cmpi_eq (a b : BitVec 32) :
    (FloatOps.sitofp (F := Ideal) .f32 ((IntOp.cmpi .eq a b).setWidth 32) : EReal) = if b = a then 1 else 0 := by
  by_cases hab : b = a
  · subst hab
    have e : IntOp.cmpi .eq b b = 1#1 := by simp [IntOp.cmpi]
    rw [if_pos rfl, e]
    show ((((((1#1 : BitVec 1).setWidth 32).toInt : ℤ) : ℝ)) : EReal) = 1
    have : ((1#1 : BitVec 1).setWidth 32).toInt = 1 := by decide
    rw [this]; norm_num
  · have e : IntOp.cmpi .eq a b = 0#1 := by
      have hb : (a == b) = false := beq_eq_false_iff_ne.mpr fun h => hab h.symm
      show BitVec.ofBool (a == b) = 0#1
      rw [hb]; rfl
    rw [if_neg hab, e]
    show ((((((0#1 : BitVec 1).setWidth 32).toInt : ℤ) : ℝ)) : EReal) = 0
    have : ((0#1 : BitVec 1).setWidth 32).toInt = 0 := by decide
    rw [this]; norm_num

/-- The mask bit at (c, dd, h, w): "the class number `c` equals the label word at (0, 0, dd, h, w)". -/
theorem pay5_apply (x1 : Vec Ideal S1x1x8x128x128 .i32) (c dd : Fin 8) (h w : Fin 128) :
    k0_pay5 (F := Ideal) x1 (ix4 c dd h w) = IntOp.cmpi .eq (BitVec.ofNat 32 c.val) (x1 (ix5 0 0 dd h w)) := by
  unfold k0_pay5
  show IntOp.cmpi .eq (iota .tc S8x8x128x128 32 [0] _ (ix4 c dd h w))
      (broadcastTo S8x8x128x128 (shapeCast S1x8x128x128 (shapeCast S8x128x128 x1 _) _) _ (ix4 c dd h w)) = _
  rw [iota_single_apply, spread_apply, castLabels_apply]

/-! ## The log-softmax of the block's columns -/

/-- The scores less their column's maximum: `X − max over the classes of X`, the maximum spread back over the classes. -/
def shift (X : FVec Ideal S8x8x128x128 .f32) : FVec Ideal S8x8x128x128 .f32 :=
  subf X (broadcastTo S8x8x128x128
    (shapeCast S1x8x128x128
      (multiReduction .maximumf [0] S8x128x128 X 0xFF800000#32 reduces_S8x8x128x128_S8x128x128 (.inl rfl) rfl)
      shapeCasts_S8x128x128_S1x8x128x128)
    broadcasts_S1x8x128x128_S8x8x128x128)

/-- At (k, dd, h, w): the score there less the maximum of the column (·, dd, h, w). -/
theorem shift_apply (X : FVec Ideal S8x8x128x128 .f32) (k dd : Fin 8) (h w : Fin 128) :
    shift X (ix4 k dd h w) = X (ix4 k dd h w) - colMax (fun k' => X (ix4 k' dd h w)) := by
  unfold shift
  rw [subf_apply, spread_apply]
  exact congrArg (fun m => X (ix4 k dd h w) - m) (max_class X _ _ _ dd h w)

/-- The shifted scores less the logarithm of the column's sum of their exponentials, spread back over the classes. -/
def logp (X : FVec Ideal S8x8x128x128 .f32) : FVec Ideal S8x8x128x128 .f32 :=
  subf (shift X) (broadcastTo S8x8x128x128
    (log (shapeCast S1x8x128x128
      (multiReduction .add [0] S8x128x128 (exp (shift X)) 0x00000000#32 reduces_S8x8x128x128_S8x128x128 (.inl rfl) rfl)
      shapeCasts_S8x128x128_S1x8x128x128))
    broadcasts_S1x8x128x128_S8x8x128x128)

/-- At (c, dd, h, w): the log-softmax at class `c` of the column (·, dd, h, w). -/
theorem logp_apply (X : FVec Ideal S8x8x128x128 .f32) (c dd : Fin 8) (h w : Fin 128) :
    logp X (ix4 c dd h w) = logSoftmax (fun k => X (ix4 k dd h w)) c := by
  unfold logp logSoftmax
  rw [subf_apply, shift_apply, bcastClass_apply]
  show _ - Ideal.log (shapeCast S1x8x128x128 _ _ (ix4 (0 : Fin 1) dd h w)) = _
  rw [shapeCast_abc_1abc_apply]
  refine congrArg (fun s => _ - Ideal.log s) ((sum_class _ _ _ _ dd h w).trans (Finset.sum_congr rfl fun k _ => ?_))
  show Ideal.exp (shift X (ix4 k dd h w)) = _
  rw [shift_apply]

/-! ## The two payloads at a class -/

/-- The loss payload at class `c`: over the block's positions (dd, h, w), `0 − logSoftmax` of the position's column of
    eight scores where the label word is `c`, else `0`. -/
theorem pay6_apply (x0 : Vec Ideal S1x8x8x128x128 .f32) (x1 : Vec Ideal S1x1x8x128x128 .i32) (c : Fin 8) :
    k0_pay6 (F := Ideal) x0 x1 (ix1 c)
      = ∑ dd : Fin 8, ∑ h : Fin 128, ∑ w : Fin 128,
          (if x1 (ix5 0 0 dd h w) = BitVec.ofNat 32 c.val
            then 0 - logSoftmax (fun k => x0 (ix5 0 k dd h w)) c else (0 : EReal)) := by
  unfold k0_pay6
  refine (sum_depth _ _ _ _ c).trans (Finset.sum_congr rfl fun dd _ => ?_)
  refine (sum_row _ _ _ _ c dd).trans (Finset.sum_congr rfl fun h _ => ?_)
  refine (sum_lane _ _ _ _ c dd h).trans (Finset.sum_congr rfl fun w _ => ?_)
  show Scalar.select (k0_pay5 (F := Ideal) x1 (ix4 c dd h w))
      (Ideal.ofBits .f32 0x00000000#32
        - logp (shapeCast S8x8x128x128 x0 shapeCasts_S1x8x8x128x128_S8x8x128x128) (ix4 c dd h w))
      (Ideal.ofBits .f32 0x00000000#32) = _
  rw [pay5_apply, select_cmpi_eq, logp_apply, Ideal.ofBits_zero_f32]
  refine if_congr Iff.rfl (congrArg (fun s => 0 - logSoftmax s c) (funext fun k => ?_)) rfl
  exact castScores_apply x0 _ k dd h w

/-- The count payload at class `c`: the number of the block's positions whose label word is `c`. -/
theorem pay7_apply (x1 : Vec Ideal S1x1x8x128x128 .i32) (c : Fin 8) :
    k0_pay7 (F := Ideal) x1 (ix1 c)
      = ∑ dd : Fin 8, ∑ h : Fin 128, ∑ w : Fin 128,
          (if x1 (ix5 0 0 dd h w) = BitVec.ofNat 32 c.val then (1 : EReal) else 0) := by
  unfold k0_pay7
  refine (sum_depth _ _ _ _ c).trans (Finset.sum_congr rfl fun dd _ => ?_)
  refine (sum_row _ _ _ _ c dd).trans (Finset.sum_congr rfl fun h _ => ?_)
  refine (sum_lane _ _ _ _ c dd h).trans (Finset.sum_congr rfl fun w _ => ?_)
  show FloatOps.sitofp (F := Ideal) .f32 ((k0_pay5 (F := Ideal) x1 (ix4 c dd h w)).setWidth 32) = _
  rw [pay5_apply]
  exact sitofp_cmpi_eq _ _

end Cert.KernelIdeal.Pay

end
-- ==== Proof.SumIdx.lean ====
/-
  Two re-indexings of finite sums: over the row-major numbering of the 4·64·128·128 positions, and over the
  sixty-four depths as eight chunks of eight.
-/
import proofs.«429569_j28656021799139_1_alg».proof.Proof.Spec
import Mathlib.Algebra.BigOperators.Fin
import Mathlib.Algebra.BigOperators.Group.Finset.Basic
import Mathlib.Data.Fintype.BigOperators

noncomputable section

open scoped BigOperators

namespace Cert.Spec

/-- The row-major numbering is a bijection from the quadruples (batch, depth, row, lane) onto the 4194304 positions:
    its inverse reads the four digits of a position number in the mixed radix (4, 64, 128, 128) by division and
    remainder. -/
def posEquiv : (Fin 4 × Fin 64 × Fin 128 × Fin 128) ≃ Fin 4194304 where
  toFun p := pos p.1 p.2.1 p.2.2.1 p.2.2.2
  invFun n :=
    (⟨n.val / 1048576, by have := n.isLt; omega⟩, ⟨n.val / 16384 % 64, by omega⟩,
      ⟨n.val / 128 % 128, by omega⟩, ⟨n.val % 128, by omega⟩)
  left_inv := by
    rintro ⟨b, d, h, w⟩
    have hb := b.isLt
    have hd := d.isLt
    have hh := h.isLt
    have hw := w.isLt
    refine Prod.ext (Fin.ext ?_) (Prod.ext (Fin.ext ?_) (Prod.ext (Fin.ext ?_) (Fin.ext ?_)))
    · show (((b.val * 64 + d.val) * 128 + h.val) * 128 + w.val) / 1048576 = b.val
      omega
    · show (((b.val * 64 + d.val) * 128 + h.val) * 128 + w.val) / 16384 % 64 = d.val
      omega
    · show (((b.val * 64 + d.val) * 128 + h.val) * 128 + w.val) / 128 % 128 = h.val
      omega
    · show (((b.val * 64 + d.val) * 128 + h.val) * 128 + w.val) % 128 = w.val
      omega
  right_inv := by
    intro n
    have hn := n.isLt
    apply Fin.ext
    show ((n.val / 1048576 * 64 + n.val / 16384 % 64) * 128 + n.val / 128 % 128) * 128 + n.val % 128 = n.val
    omega

/-- Eight chunks of eight depths number the sixty-four depths bijectively: the inverse reads the chunk as the
    quotient by eight and the row within the chunk as the remainder. -/
def depthEquiv : (Fin 8 × Fin 8) ≃ Fin 64 where
  toFun p := depth p.1 p.2
  invFun d := (⟨d.val / 8, by have := d.isLt; omega⟩, ⟨d.val % 8, by omega⟩)
  left_inv := by
    rintro ⟨j, dd⟩
    have hj := j.isLt
    have hdd := dd.isLt
    refine Prod.ext (Fin.ext ?_) (Fin.ext ?_)
    · show (8 * j.val + dd.val) / 8 = j.val
      omega
    · show (8 * j.val + dd.val) % 8 = dd.val
      omega
  right_inv := by
    intro d
    apply Fin.ext
    show 8 * (d.val / 8) + d.val % 8 = d.val
    omega

/-- A sum over the 4194304 positions in row-major order is the iterated sum over batch, depth, row and lane. -/
theorem sum_pos {M : Type*} [AddCommMonoid M] (g : Fin 4194304 → M) :
    ∑ n : Fin 4194304, g n = ∑ b : Fin 4, ∑ d : Fin 64, ∑ h : Fin 128, ∑ w : Fin 128, g (pos b d h w) := by
  -- re-index the sum along the bijection, then split the sum over the product type one factor at a time
  calc ∑ n : Fin 4194304, g n
      = ∑ p : Fin 4 × Fin 64 × Fin 128 × Fin 128, g (pos p.1 p.2.1 p.2.2.1 p.2.2.2) :=
        (Equiv.sum_comp posEquiv g).symm
    _ = ∑ b : Fin 4, ∑ d : Fin 64, ∑ h : Fin 128, ∑ w : Fin 128, g (pos b d h w) := by
        simp only [Fintype.sum_prod_type]

/-- A sum over the sixty-four depths is the sum over the eight chunks of the sums over a chunk's eight rows. -/
theorem sum_depth {M : Type*} [AddCommMonoid M] (g : Fin 64 → M) :
    ∑ d : Fin 64, g d = ∑ j : Fin 8, ∑ dd : Fin 8, g (depth j dd) := by
  -- re-index the sum along the bijection, then split the sum over the product type
  calc ∑ d : Fin 64, g d
      = ∑ p : Fin 8 × Fin 8, g (depth p.1 p.2) := (Equiv.sum_comp depthEquiv g).symm
    _ = ∑ j : Fin 8, ∑ dd : Fin 8, g (depth j dd) := by
        simp only [Fintype.sum_prod_type]

end Cert.Spec

end
-- ==== Proof.KBridge.lean ====
/-
  From the kernel's running sums to the class sums. Point `8 b + j` reads, through the two input windows, batch `b`'s
  depths `8 j, …, 8 j + 7` of the scores and of the labels; its partial sums are therefore the sums of the positions'
  terms over those depths, a batch row's eight chunks make up the row's sixty-four depths, and the host's sum over the
  four rows gives the sum over all positions.
-/
import proofs.«429569_j28656021799139_1_alg».proof.Proof.KTail
import proofs.«429569_j28656021799139_1_alg».proof.Proof.KPay
import proofs.«429569_j28656021799139_1_alg».proof.Proof.SumIdx
import Idealize.ShloMosaic.Lib.IdealHost

noncomputable section

open scoped BigOperators

namespace Cert.KernelIdeal.Bridge

open Idealize.ShloMosaic Idealize.ShloMosaic.TcCoe Idealize.ShloMosaic.ValueIdx Idealize.SL.Sem
open Cert.KernelIdeal Cert.KernelIdeal.Gen Cert.KernelIdeal.Accum Cert.KernelIdeal.Final Cert.KernelIdeal.Tail Cert.Spec

variable (m : (ℓ : Loc nD τ sig) → Buf (Elt Ideal) ℓ)

/-- The two argument arrays. -/
abbrev scores (c : Dev nD) : Vec Ideal S4x8x64x128x128 .f32 := m ((c : Thread nD τ).loc main_arg0)
abbrev labels (c : Dev nD) : Vec Ideal S4x1x64x128x128 .i32 := m ((c : Thread nD τ).loc main_arg1)

/-- The input windows' block indices, decided over the grid: block (t / 8, 0, t % 8, 0, 0) at point `t`. -/
theorem in_idx_facts : ∀ t : Fin cfg0.N,
    win0_0.index t (0 : Fin 5) = t.val / 8 ∧ win0_0.index t (1 : Fin 5) = 0 ∧ win0_0.index t (2 : Fin 5) = t.val % 8
    ∧ win0_0.index t (3 : Fin 5) = 0 ∧ win0_0.index t (4 : Fin 5) = 0
    ∧ win0_1.index t (0 : Fin 5) = t.val / 8 ∧ win0_1.index t (1 : Fin 5) = 0 ∧ win0_1.index t (2 : Fin 5) = t.val % 8
    ∧ win0_1.index t (3 : Fin 5) = 0 ∧ win0_1.index t (4 : Fin 5) = 0 :=
  (by decide +kernel : ∀ t : Fin grid0.N,
    win0_0.index t (0 : Fin 5) = t.val / 8 ∧ win0_0.index t (1 : Fin 5) = 0 ∧ win0_0.index t (2 : Fin 5) = t.val % 8
    ∧ win0_0.index t (3 : Fin 5) = 0 ∧ win0_0.index t (4 : Fin 5) = 0
    ∧ win0_1.index t (0 : Fin 5) = t.val / 8 ∧ win0_1.index t (1 : Fin 5) = 0 ∧ win0_1.index t (2 : Fin 5) = t.val % 8
    ∧ win0_1.index t (3 : Fin 5) = 0 ∧ win0_1.index t (4 : Fin 5) = 0)

/-- The scores' block at point `8 b + j`, read at (0, k, dd, h, w), is the scores at (b, k, 8 j + dd, h, w). -/
theorem xblk_apply (c : Dev nD) (b : Fin 4) (j : Fin 8) (hn : 8 * b.val + j.val < cfg0.N) (k dd : Fin 8) (h w : Fin 128) :
    xblk m c ⟨8 * b.val + j.val, hn⟩ (ix5 0 k dd h w) = scores m c (ix5 b k (depth j dd) h w) := by
  obtain ⟨e0, e1, e2, e3, e4, -⟩ := in_idx_facts ⟨8 * b.val + j.val, hn⟩
  have hb := b.isLt; have hj := j.isLt; have hk := k.isLt; have hd := dd.isLt; have hh := h.isLt; have hw := w.isLt
  show V m c main_arg0 (((cfg0.win 0).blk ⟨8 * b.val + j.val, hn⟩).view.emb (ix5 0 k dd h w)) = _
  rw [V_main_arg0]
  refine congrArg (m ((c : Thread nD τ).loc main_arg0)) ?_
  funext a
  apply Fin.ext
  match a with
  | ⟨0, _⟩ => show win0_0.index ⟨8 * b.val + j.val, hn⟩ (0 : Fin 5) * 1 + 1 * 0 = b.val; rw [e0]; dsimp only; omega
  | ⟨1, _⟩ => show win0_0.index ⟨8 * b.val + j.val, hn⟩ (1 : Fin 5) * 8 + 1 * k.val = k.val; rw [e1]; omega
  | ⟨2, _⟩ => show win0_0.index ⟨8 * b.val + j.val, hn⟩ (2 : Fin 5) * 8 + 1 * dd.val = 8 * j.val + dd.val; rw [e2]; dsimp only; omega
  | ⟨3, _⟩ => show win0_0.index ⟨8 * b.val + j.val, hn⟩ (3 : Fin 5) * 128 + 1 * h.val = h.val; rw [e3]; omega
  | ⟨4, _⟩ => show win0_0.index ⟨8 * b.val + j.val, hn⟩ (4 : Fin 5) * 128 + 1 * w.val = w.val; rw [e4]; omega

/-- The labels' block at point `8 b + j`, read at (0, 0, dd, h, w), is the label word at (b, 0, 8 j + dd, h, w). -/
theorem lblk_apply (c : Dev nD) (b : Fin 4) (j : Fin 8) (hn : 8 * b.val + j.val < cfg0.N) (dd : Fin 8) (h w : Fin 128) :
    lblk m c ⟨8 * b.val + j.val, hn⟩ (ix5 0 0 dd h w) = labels m c (ix5 b 0 (depth j dd) h w) := by
  obtain ⟨-, -, -, -, -, e0, e1, e2, e3, e4⟩ := in_idx_facts ⟨8 * b.val + j.val, hn⟩
  have hb := b.isLt; have hj := j.isLt; have hd := dd.isLt; have hh := h.isLt; have hw := w.isLt
  show V m c main_arg1 (((cfg0.win 1).blk ⟨8 * b.val + j.val, hn⟩).view.emb (ix5 0 0 dd h w)) = _
  rw [V_main_arg1]
  refine congrArg (m ((c : Thread nD τ).loc main_arg1)) ?_
  funext a
  apply Fin.ext
  match a with
  | ⟨0, _⟩ => show win0_1.index ⟨8 * b.val + j.val, hn⟩ (0 : Fin 5) * 1 + 1 * 0 = b.val; rw [e0]; dsimp only; omega
  | ⟨1, _⟩ => show win0_1.index ⟨8 * b.val + j.val, hn⟩ (1 : Fin 5) * 1 + 1 * 0 = 0; rw [e1]
  | ⟨2, _⟩ => show win0_1.index ⟨8 * b.val + j.val, hn⟩ (2 : Fin 5) * 8 + 1 * dd.val = 8 * j.val + dd.val; rw [e2]; dsimp only; omega
  | ⟨3, _⟩ => show win0_1.index ⟨8 * b.val + j.val, hn⟩ (3 : Fin 5) * 128 + 1 * h.val = h.val; rw [e3]; omega
  | ⟨4, _⟩ => show win0_1.index ⟨8 * b.val + j.val, hn⟩ (4 : Fin 5) * 128 + 1 * w.val = w.val; rw [e4]; omega

/-- Point `8 b + j`'s partial loss sum for class `k`: the positions' loss terms over the chunk's eight depths. -/
theorem partLoss_eq (c : Dev nD) (k : Fin 8) (b : Fin 4) (j : Fin 8) :
    partLoss m c k (8 * b.val + j.val)
      = ∑ dd : Fin 8, ∑ h : Fin 128, ∑ w : Fin 128, lossTerm (scores m c) (labels m c) k b (depth j dd) h w := by
  have hn : 8 * b.val + j.val < cfg0.N := lt_of_lt_of_eq (by have := b.isLt; have := j.isLt; omega : 8 * b.val + j.val < 32) N_0.symm
  unfold partLoss
  rw [dif_pos hn, Pay.pay6_apply]
  refine Finset.sum_congr rfl fun dd _ => Finset.sum_congr rfl fun h _ => Finset.sum_congr rfl fun w _ => ?_
  unfold lossTerm
  rw [lblk_apply m c b j hn dd h w]
  refine if_congr Iff.rfl ?_ rfl
  refine congrArg (fun col => (0 : EReal) - logSoftmax col k) ?_
  funext k'
  exact xblk_apply m c b j hn k' dd h w

/-- Point `8 b + j`'s partial count for class `k`. -/
theorem partCount_eq (c : Dev nD) (k : Fin 8) (b : Fin 4) (j : Fin 8) :
    partCount m c k (8 * b.val + j.val)
      = ∑ dd : Fin 8, ∑ h : Fin 128, ∑ w : Fin 128, countTerm (labels m c) k b (depth j dd) h w := by
  have hn : 8 * b.val + j.val < cfg0.N := lt_of_lt_of_eq (by have := b.isLt; have := j.isLt; omega : 8 * b.val + j.val < 32) N_0.symm
  unfold partCount
  rw [dif_pos hn, Pay.pay7_apply]
  refine Finset.sum_congr rfl fun dd _ => Finset.sum_congr rfl fun h _ => Finset.sum_congr rfl fun w _ => ?_
  unfold countTerm
  rw [lblk_apply m c b j hn dd h w]

/-- A batch row's loss sum for class `k` is the sum of the row's positions' loss terms. -/
theorem rowLoss_eq (c : Dev nD) (k : Fin 8) (b : Fin 4) :
    rowLoss m c k b.val = ∑ d : Fin 64, ∑ h : Fin 128, ∑ w : Fin 128, lossTerm (scores m c) (labels m c) k b d h w := by
  unfold rowLoss
  rw [Finset.sum_range, sum_depth]
  exact Finset.sum_congr rfl fun j _ => partLoss_eq m c k b j
theorem rowCount_eq (c : Dev nD) (k : Fin 8) (b : Fin 4) :
    rowCount m c k b.val = ∑ d : Fin 64, ∑ h : Fin 128, ∑ w : Fin 128, countTerm (labels m c) k b d h w := by
  unfold rowCount
  rw [Finset.sum_range, sum_depth]
  exact Finset.sum_congr rfl fun j _ => partCount_eq m c k b j

/-- The host's sum over the batch rows of an array [4, 1, 8], reshaped to a vector of eight, read at class `k`. -/
theorem rows_sum_apply (A : FVec Ideal S4x1x8 .f32) (k : Fin 8) :
    shapeCast S8 (Host.reduceAdd A (constant S_ .f32 0x00000000#32) reducesTo_S4x1x8_S1x8_d0 h_S_) shapeCasts_S1x8_S8 (ix1 k)
      = ∑ b : Fin 4, A (ix3 b 0 k) := by
  rw [shapeCast_1a_a_apply, hostReduceAdd_apply,
    Ideal.hostReduceAdd_single reducesTo_S4x1x8_S1x8_d0 (by decide : S4x1x8.Reduces [0] S1x8)]
  show Ideal.ofBits .f32 0x00000000#32 + _ = _
  rw [Ideal.ofBits_zero_f32, zero_add]
  refine Finset.sum_congr rfl fun b _ => congrArg A ?_
  funext a
  apply Fin.ext
  match a with
  | ⟨0, _⟩ => rfl
  | ⟨1, _⟩ => rfl
  | ⟨2, _⟩ => rfl

/-- THE KERNEL'S EIGHT SUMS AND EIGHT COUNTS are the class sums and counts of the argument arrays. -/
theorem hostSums_eq (c : Dev nD) (k : Fin 8) : hostSums m c (ix1 k) = classSum (scores m c) (labels m c) k := by
  unfold hostSums classSum
  rw [rows_sum_apply]
  exact Finset.sum_congr rfl fun b _ => rowLoss_eq m c k b
theorem hostCounts_eq (c : Dev nD) (k : Fin 8) : hostCounts m c (ix1 k) = classCount (labels m c) k := by
  unfold hostCounts classCount
  rw [rows_sum_apply]
  exact Finset.sum_congr rfl fun b _ => rowCount_eq m c k b

end Cert.KernelIdeal.Bridge

end
-- ==== Proof.KRun.lean ====
/-
  The idealized kernel's run, read: every weakly fair execution ends with the result buffer at the `tail` of the class
  sums and class counts of the two argument arrays, and the arguments unchanged.
-/
import proofs.«429569_j28656021799139_1_alg».proof.Proof.KBridge

noncomputable section

namespace Cert.KernelIdeal.Run

open Idealize.ShloMosaic Idealize.ShloMosaic.TcCoe Idealize.ShloMosaic.ValueIdx Idealize.SL.Sem
open Cert.KernelIdeal Cert.KernelIdeal.Gen Cert.KernelIdeal.Final Cert.KernelIdeal.Tail Cert.KernelIdeal.Bridge Cert.Spec

variable (m : (ℓ : Loc nD τ sig) → Buf (Elt Ideal) ℓ) (ρ : Dev nD → PrngReg)

/-- The class sums and counts of a pair of argument arrays, as vectors of eight. -/
def sumsOf (x : Vec Ideal S4x8x64x128x128 .f32) (lab : Vec Ideal S4x1x64x128x128 .i32) : FVec Ideal S8 .f32 :=
  fun i => classSum x lab (i 0)
def countsOf (lab : Vec Ideal S4x1x64x128x128 .i32) : FVec Ideal S8 .f32 := fun i => classCount lab (i 0)

/-- The result: the mean over the classes present of each class's mean loss. -/
def result (c : Dev nD) : Buf (Elt Ideal) ((c.tc : Thread nD τ).loc main_v14) :=
  Cert.Spec.tail bcast_S_S8 reducesTo_S8_S_d0 h_S_ (sumsOf (scores m c) (labels m c)) (countsOf (labels m c))

theorem hostSums_eq_sumsOf (c : Dev nD) : hostSums m c = sumsOf (scores m c) (labels m c) := by
  funext i
  obtain ⟨k, rfl⟩ : ∃ k : Fin 8, i = ix1 k := ⟨i 0, eq_ix1 i⟩
  exact hostSums_eq m c k
theorem hostCounts_eq_countsOf (c : Dev nD) : hostCounts m c = countsOf (labels m c) := by
  funext i
  obtain ⟨k, rfl⟩ : ∃ k : Fin 8, i = ix1 k := ⟨i 0, eq_ix1 i⟩
  exact hostCounts_eq m c k

/-- The run, read. -/
theorem run : θ_run defs (onTc (τ := τ) (main (F := Ideal))) ⟨m, fun _ => 0, ρ⟩ fun r => ∀ c : Dev nD,
      r.2.mem ((c.tc : Thread nD τ).loc main_v14) = result m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c).2 main_v14 (by decide)).trans ((tail_eq m c).trans (by
          unfold result; rw [hostSums_eq_sumsOf, hostCounts_eq_countsOf])),
        ((h c).1 0).trans (((dats m 0 c).arrAt_in 0 rfl _).trans ((A_eq m c 0).trans (V_main_arg0 m c))),
        ((h c).1 1).trans (((dats m 0 c).arrAt_in 1 rfl _).trans ((A_eq m c 1).trans (V_main_arg1 m c)))⟩)
    (run_main m ρ)

end Cert.KernelIdeal.Run

end
-- ==== Proof.RefRun.lean ====
/-
  The reference's run: every weakly fair execution of its @main terminates with the result buffer at the last stage's
  value of the two argument arrays, read stage by stage, and the arguments unchanged.
-/
import proofs.«429569_j28656021799139_1_alg».proof.Proof.RefRunP
import proofs.«429569_j28656021799139_1_alg».proof.Proof.RefReadP
import proofs.«429569_j28656021799139_1_alg».proof.Proof.LibTRefCast
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The line, cut into five consecutive stretches -/

/-- Operations 1 to 4: the two arguments transposed to channels-last and flattened to rows. -/
abbrev s1 : List (HloOp τ sig (Elt F)) :=
  [ unary main_arg0 main_v0 ((transpose S4x64x128x128x8 [0, 2, 3, 4, 1] · transposes_S4x8x64x128x128_S4x64x128x128x8_0_2_3_4_1) : (⟨S4x8x64x128x128, .f32⟩ : BufTy).Contents (Elt F) → (⟨S4x64x128x128x8, .f32⟩ : BufTy).Contents (Elt F)),
    reshape main_v0 main_v1 rfl shapeCasts_S4x64x128x128x8_S4194304x8,
    unary main_arg1 main_v2 ((transpose S4x64x128x128x1 [0, 2, 3, 4, 1] · transposes_S4x1x64x128x128_S4x64x128x128x1_0_2_3_4_1) : (⟨S4x1x64x128x128, .i32⟩ : BufTy).Contents (Elt F) → (⟨S4x64x128x128x1, .i32⟩ : BufTy).Contents (Elt F)),
    reshape main_v2 main_v3 rfl shapeCasts_S4x64x128x128x1_S4194304 ]

/-- Operations 5 to 19: the log-softmax of the rows (row maximum, shifted exponentials, their sum's logarithm). -/
abbrev s2 : List (HloOp τ sig (Elt F)) :=
  [ TRef.nullary (TRef.of (T := ⟨S_, .f32⟩) main_call0_cst) (constant S_ .f32 0xFF800000#32),
    TRef.binary (TRef.of (T := ⟨S4194304x8, .f32⟩) main_v1) (TRef.of (T := ⟨S_, .f32⟩) main_call0_cst) (TRef.of (T := ⟨S4194304, .f32⟩) main_call0_v0) (fun x v => Host.reduce FloatOps.maximumf x v reducesTo_S4194304x8_S4194304_d1 h_S_),
    TRef.nullary (TRef.of (T := ⟨S_, .f32⟩) main_call0_cst_0) (constant S_ .f32 0xFF800000#32),
    TRef.unary (TRef.of (T := ⟨S_, .f32⟩) main_call0_cst_0) (TRef.of (T := ⟨S4194304, .f32⟩) main_call0_v1) (broadcastInDim S4194304 ![] bcast_S_S4194304),
    TRef.binary (TRef.of (T := ⟨S4194304, .f32⟩) main_call0_v1) (TRef.of (T := ⟨S4194304, .f32⟩) main_call0_v0) (TRef.of (T := ⟨S4194304, .f32⟩) main_call0_v2) maximumf,
    TRef.unary (TRef.of (T := ⟨S4194304, .f32⟩) main_call0_v2) (TRef.of (T := ⟨S4194304x1, .f32⟩) main_call0_v3) (broadcastInDim S4194304x1 ![0] bcast_S4194304_S4194304x1_0),
    TRef.unary (TRef.of (T := ⟨S4194304x1, .f32⟩) main_call0_v3) (TRef.of (T := ⟨S4194304x8, .f32⟩) main_call0_v4) (broadcastInDim S4194304x8 ![0, 1] bcast_S4194304x1_S4194304x8_0_1),
    TRef.binary (TRef.of (T := ⟨S4194304x8, .f32⟩) main_v1) (TRef.of (T := ⟨S4194304x8, .f32⟩) main_call0_v4) (TRef.of (T := ⟨S4194304x8, .f32⟩) main_call0_v5) subf,
    TRef.unary (TRef.of (T := ⟨S4194304x8, .f32⟩) main_call0_v5) (TRef.of (T := ⟨S4194304x8, .f32⟩) main_call0_v6) Host.exp,
    TRef.nullary (TRef.of (T := ⟨S_, .f32⟩) main_call0_cst_1) (constant S_ .f32 0x00000000#32),
    TRef.binary (TRef.of (T := ⟨S4194304x8, .f32⟩) main_call0_v6) (TRef.of (T := ⟨S_, .f32⟩) main_call0_cst_1) (TRef.of (T := ⟨S4194304, .f32⟩) main_call0_v7) (fun x v => Host.reduceAdd x v reducesTo_S4194304x8_S4194304_d1 h_S_),
    TRef.unary (TRef.of (T := ⟨S4194304, .f32⟩) main_call0_v7) (TRef.of (T := ⟨S4194304x1, .f32⟩) main_call0_v8) (broadcastInDim S4194304x1 ![0] bcast_S4194304_S4194304x1_0),
    TRef.unary (TRef.of (T := ⟨S4194304x1, .f32⟩) main_call0_v8) (TRef.of (T := ⟨S4194304x1, .f32⟩) main_call0_v9) Host.log,
    TRef.unary (TRef.of (T := ⟨S4194304x1, .f32⟩) main_call0_v9) (TRef.of (T := ⟨S4194304x8, .f32⟩) main_call0_v10) (broadcastInDim S4194304x8 ![0, 1] bcast_S4194304x1_S4194304x8_0_1),
    TRef.binary (TRef.of (T := ⟨S4194304x8, .f32⟩) main_call0_v5) (TRef.of (T := ⟨S4194304x8, .f32⟩) main_call0_v10) (TRef.of (T := ⟨S4194304x8, .f32⟩) main_v4) subf ]

/-- Operations 20 to 42: the labels as a column, and each row's entry at its label: a negative label has eight added,
    and where the label so wrapped is not between zero and seven the entry is the constant 0x7FC00000 instead. -/
abbrev s3 : List (HloOp τ sig (Elt F)) :=
  [ unary main_v3 main_v5 (broadcastInDim S4194304x1 ![0] bcast_S4194304_S4194304x1_0 : (⟨S4194304, .i32⟩ : BufTy).Contents (Elt F) → (⟨S4194304x1, .i32⟩ : BufTy).Contents (Elt F)),
    TRef.nullary (TRef.of (T := ⟨S_, .i32⟩) main_call1_c) (constantI S_ 32 0#32),
    TRef.unary (TRef.of (T := ⟨S_, .i32⟩) main_call1_c) (TRef.of (T := ⟨S4194304x1, .i32⟩) main_call1_v0) (broadcastInDim S4194304x1 ![] bcast_S_S4194304x1),
    TRef.binary (TRef.of (T := ⟨S4194304x1, .i32⟩) main_v5) (TRef.of (T := ⟨S4194304x1, .i32⟩) main_call1_v0) (TRef.of (T := ⟨S4194304x1, .i1⟩) main_call1_v1) (cmpi .slt),
    TRef.nullary (TRef.of (T := ⟨S_, .i32⟩) main_call1_c_0) (constantI S_ 32 8#32),
    TRef.unary (TRef.of (T := ⟨S_, .i32⟩) main_call1_c_0) (TRef.of (T := ⟨S4194304x1, .i32⟩) main_call1_v2) (broadcastInDim S4194304x1 ![] bcast_S_S4194304x1),
    TRef.binary (TRef.of (T := ⟨S4194304x1, .i32⟩) main_v5) (TRef.of (T := ⟨S4194304x1, .i32⟩) main_call1_v2) (TRef.of (T := ⟨S4194304x1, .i32⟩) main_call1_v3) addi,
    TRef.ternary (TRef.of (T := ⟨S4194304x1, .i1⟩) main_call1_v1) (TRef.of (T := ⟨S4194304x1, .i32⟩) main_call1_v3) (TRef.of (T := ⟨S4194304x1, .i32⟩) main_v5) (TRef.of (T := ⟨S4194304x1, .i32⟩) main_call1_v4) select,
    TRef.reshape (TRef.of (T := ⟨S4194304x1, .i32⟩) main_call1_v4) (TRef.of (T := ⟨S4194304x1x1, .i32⟩) main_call1_v5) rfl shapeCasts_S4194304x1_S4194304x1x1,
    TRef.nullary (TRef.of (T := ⟨S1, .i32⟩) main_call1_c_1) (constantI S1 32 7#32),
    TRef.nullary (TRef.of (T := ⟨S_, .i32⟩) main_call1_c_2) (constantI S_ 32 0#32),
    TRef.unary (TRef.of (T := ⟨S_, .i32⟩) main_call1_c_2) (TRef.of (T := ⟨S4194304x1x1, .i32⟩) main_call1_v6) (broadcastInDim S4194304x1x1 ![] bcast_S_S4194304x1x1),
    TRef.binary (TRef.of (T := ⟨S4194304x1x1, .i32⟩) main_call1_v5) (TRef.of (T := ⟨S4194304x1x1, .i32⟩) main_call1_v6) (TRef.of (T := ⟨S4194304x1x1, .i1⟩) main_call1_v7) (cmpi .sge),
    TRef.unary (TRef.of (T := ⟨S1, .i32⟩) main_call1_c_1) (TRef.of (T := ⟨S1x1x1, .i32⟩) main_call1_v8) (broadcastInDim S1x1x1 ![2] bcast_S1_S1x1x1_2),
    TRef.unary (TRef.of (T := ⟨S1x1x1, .i32⟩) main_call1_v8) (TRef.of (T := ⟨S4194304x1x1, .i32⟩) main_call1_v9) (broadcastInDim S4194304x1x1 ![0, 1, 2] bcast_S1x1x1_S4194304x1x1_0_1_2),
    TRef.binary (TRef.of (T := ⟨S4194304x1x1, .i32⟩) main_call1_v5) (TRef.of (T := ⟨S4194304x1x1, .i32⟩) main_call1_v9) (TRef.of (T := ⟨S4194304x1x1, .i1⟩) main_call1_v10) (cmpi .sle),
    TRef.binary (TRef.of (T := ⟨S4194304x1x1, .i1⟩) main_call1_v7) (TRef.of (T := ⟨S4194304x1x1, .i1⟩) main_call1_v10) (TRef.of (T := ⟨S4194304x1x1, .i1⟩) main_call1_v11) andi,
    TRef.nullary (TRef.of (T := ⟨S_, .i1⟩) main_call1_c_3) (constantI S_ 1 1#1),
    TRef.binary (TRef.of (T := ⟨S4194304x1x1, .i1⟩) main_call1_v11) (TRef.of (T := ⟨S_, .i1⟩) main_call1_c_3) (TRef.of (T := ⟨S4194304x1, .i1⟩) main_call1_v12) (fun x v => Host.reduce IntOp.andi x v reducesTo_S4194304x1x1_S4194304x1_d2 h_S_),
    TRef.binary (TRef.of (T := ⟨S4194304x8, .f32⟩) main_v4) (TRef.of (T := ⟨S4194304x1x1, .i32⟩) main_call1_v5) (TRef.of (T := ⟨S4194304x1, .f32⟩) main_call1_v13) (fun x i => Host.gather gather_S4194304x8_S4194304x1x1_S4194304x1_n_1_0_0_1_2_11 x i),
    TRef.nullary (TRef.of (T := ⟨S_, .f32⟩) main_call1_cst) (constant S_ .f32 0x7FC00000#32),
    TRef.unary (TRef.of (T := ⟨S_, .f32⟩) main_call1_cst) (TRef.of (T := ⟨S4194304x1, .f32⟩) main_call1_v14) (broadcastInDim S4194304x1 ![] bcast_S_S4194304x1),
    TRef.ternary (TRef.of (T := ⟨S4194304x1, .i1⟩) main_call1_v12) (TRef.of (T := ⟨S4194304x1, .f32⟩) main_call1_v13) (TRef.of (T := ⟨S4194304x1, .f32⟩) main_call1_v14) (TRef.of (T := ⟨S4194304x1, .f32⟩) main_v6) select ]

/-- Operations 43 to 54: the entries negated, and the constant one, each added up label by label into eight bins
    that start at zero. -/
abbrev s4 : List (HloOp τ sig (Elt F)) :=
  [ reshape main_v6 main_v7 rfl shapeCasts_S4194304x1_S4194304,
    unary main_v7 main_v8 (Host.negf : (⟨S4194304, .f32⟩ : BufTy).Contents (Elt F) → (⟨S4194304, .f32⟩ : BufTy).Contents (Elt F)),
    nullary main_cst (constant S_ .f32 0x00000000#32),
    unary main_cst main_v9 (broadcastInDim S8 ![] bcast_S_S8 : (⟨S_, .f32⟩ : BufTy).Contents (Elt F) → (⟨S8, .f32⟩ : BufTy).Contents (Elt F)),
    unary main_v3 main_v10 (broadcastInDim S4194304x1 ![0] bcast_S4194304_S4194304x1_0 : (⟨S4194304, .i32⟩ : BufTy).Contents (Elt F) → (⟨S4194304x1, .i32⟩ : BufTy).Contents (Elt F)),
    ternary main_v9 main_v10 main_v8 main_v11 ((fun x i u => Host.scatterAdd scatter_S8_S4194304x1_S4194304_n_0_0_1 x i u) : (⟨S8, .f32⟩ : BufTy).Contents (Elt F) → (⟨S4194304x1, .i32⟩ : BufTy).Contents (Elt F) → (⟨S4194304, .f32⟩ : BufTy).Contents (Elt F) → (⟨S8, .f32⟩ : BufTy).Contents (Elt F)),
    nullary main_cst_0 (constant S_ .f32 0x3F800000#32),
    unary main_cst_0 main_v12 (broadcastInDim S4194304 ![] bcast_S_S4194304 : (⟨S_, .f32⟩ : BufTy).Contents (Elt F) → (⟨S4194304, .f32⟩ : BufTy).Contents (Elt F)),
    nullary main_cst_1 (constant S_ .f32 0x00000000#32),
    unary main_cst_1 main_v13 (broadcastInDim S8 ![] bcast_S_S8 : (⟨S_, .f32⟩ : BufTy).Contents (Elt F) → (⟨S8, .f32⟩ : BufTy).Contents (Elt F)),
    unary main_v3 main_v14 (broadcastInDim S4194304x1 ![0] bcast_S4194304_S4194304x1_0 : (⟨S4194304, .i32⟩ : BufTy).Contents (Elt F) → (⟨S4194304x1, .i32⟩ : BufTy).Contents (Elt F)),
    ternary main_v13 main_v14 main_v12 main_v15 ((fun x i u => Host.scatterAdd scatter_S8_S4194304x1_S4194304_n_0_0_1 x i u) : (⟨S8, .f32⟩ : BufTy).Contents (Elt F) → (⟨S4194304x1, .i32⟩ : BufTy).Contents (Elt F) → (⟨S4194304, .f32⟩ : BufTy).Contents (Elt F) → (⟨S8, .f32⟩ : BufTy).Contents (Elt F)) ]

/-- Operations 55 to 71: per bin the first sum over the larger of the bin's count and one, kept where the count is
    positive and zero elsewhere; the sum of these over the bins, over the number of bins whose count is positive. -/
abbrev s5 : List (HloOp τ sig (Elt F)) :=
  [ nullary main_cst_2 (constant S_ .f32 0x00000000#32),
    unary main_cst_2 main_v16 (broadcastInDim S8 ![] bcast_S_S8 : (⟨S_, .f32⟩ : BufTy).Contents (Elt F) → (⟨S8, .f32⟩ : BufTy).Contents (Elt F)),
    binary main_v15 main_v16 main_v17 (cmpf (F := F) .ogt : (⟨S8, .f32⟩ : BufTy).Contents (Elt F) → (⟨S8, .f32⟩ : BufTy).Contents (Elt F) → (⟨S8, .i1⟩ : BufTy).Contents (Elt F)),
    nullary main_cst_3 (constant S_ .f32 0x3F800000#32),
    unary main_cst_3 main_v18 (broadcastInDim S8 ![] bcast_S_S8 : (⟨S_, .f32⟩ : BufTy).Contents (Elt F) → (⟨S8, .f32⟩ : BufTy).Contents (Elt F)),
    binary main_v15 main_v18 main_v19 (maximumf : (⟨S8, .f32⟩ : BufTy).Contents (Elt F) → (⟨S8, .f32⟩ : BufTy).Contents (Elt F) → (⟨S8, .f32⟩ : BufTy).Contents (Elt F)),
    binary main_v11 main_v19 main_v20 (Host.divf : (⟨S8, .f32⟩ : BufTy).Contents (Elt F) → (⟨S8, .f32⟩ : BufTy).Contents (Elt F) → (⟨S8, .f32⟩ : BufTy).Contents (Elt F)),
    unary main_v17 main_v21 (uitofp (F := F) .f32 : (⟨S8, .i1⟩ : BufTy).Contents (Elt F) → (⟨S8, .f32⟩ : BufTy).Contents (Elt F)),
    nullary main_cst_4 (constant S_ .f32 0x00000000#32),
    binary main_v21 main_cst_4 main_v22 ((fun x v => Host.reduceAdd x v reducesTo_S8_S_d0 h_S_) : (⟨S8, .f32⟩ : BufTy).Contents (Elt F) → (⟨S_, .f32⟩ : BufTy).Contents (Elt F) → (⟨S_, .f32⟩ : BufTy).Contents (Elt F)),
    nullary main_cst_5 (constant S_ .f32 0x00000000#32),
    TRef.unary (TRef.of (T := ⟨S_, .f32⟩) main_cst_5) (TRef.of (T := ⟨S_, .f32⟩) main_call2_v0) id,
    TRef.unary (TRef.of (T := ⟨S_, .f32⟩) main_call2_v0) (TRef.of (T := ⟨S8, .f32⟩) main_call2_v1) (broadcastInDim S8 ![] bcast_S_S8),
    TRef.ternary (TRef.of (T := ⟨S8, .i1⟩) main_v17) (TRef.of (T := ⟨S8, .f32⟩) main_v20) (TRef.of (T := ⟨S8, .f32⟩) main_call2_v1) (TRef.of (T := ⟨S8, .f32⟩) main_v23) select,
    nullary main_cst_6 (constant S_ .f32 0x00000000#32),
    binary main_v23 main_cst_6 main_v24 ((fun x v => Host.reduceAdd x v reducesTo_S8_S_d0 h_S_) : (⟨S8, .f32⟩ : BufTy).Contents (Elt F) → (⟨S_, .f32⟩ : BufTy).Contents (Elt F) → (⟨S_, .f32⟩ : BufTy).Contents (Elt F)),
    binary main_v24 main_v22 main_v25 (Host.divf : (⟨S_, .f32⟩ : BufTy).Contents (Elt F) → (⟨S_, .f32⟩ : BufTy).Contents (Elt F) → (⟨S_, .f32⟩ : BufTy).Contents (Elt F)) ]

/-- The line is its five stretches, one after the other. -/
theorem ops_split : (ValueP.ops : List (HloOp τ sig (Elt F))) = s1 ++ (s2 ++ (s3 ++ (s4 ++ s5))) := rfl

/-- The contents after two lines run one after the other: the second line's, from the first line's. -/
theorem after_append : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_append l₁ l₂]

/-! ## Each stretch, from ANY contents that hold the stages it reads

Each lemma holds for every valuation `W` that has, at the buffers the stretch reads, the stages its hypotheses name:
the stretch's operations composed over those values are the stage of its result, and a buffer none of them writes
keeps what `W` has there. -/

theorem s1_v1 (W : Valuation τ sig (Elt F)) (x0 : (⟨S4x8x64x128x128, .f32⟩ : BufTy).Contents (Elt F))
    (h0 : W (Proc.devRef .tc main_arg0) = x0) :
    after (s1 (F := F)) W (Proc.devRef .tc main_v1) = ReadP.val_main_v1 (F := F) x0 := by
  after_results_simp
  rw [h0]
  rfl

theorem s1_v3 (W : Valuation τ sig (Elt F)) (x1 : (⟨S4x1x64x128x128, .i32⟩ : BufTy).Contents (Elt F))
    (h0 : W (Proc.devRef .tc main_arg1) = x1) :
    after (s1 (F := F)) W (Proc.devRef .tc main_v3) = ReadP.val_main_v3 (F := F) x1 := by
  after_results_simp
  rw [h0]
  rfl

theorem s2_v4 (W : Valuation τ sig (Elt F)) (x0 : (⟨S4x8x64x128x128, .f32⟩ : BufTy).Contents (Elt F))
    (h1 : W (Proc.devRef .tc main_v1) = ReadP.val_main_v1 (F := F) x0) :
    after (s2 (F := F)) W (Proc.devRef .tc main_v4) = ReadP.val_main_v4 (F := F) x0 := by
  after_results_simp
  simp only [TRef.ofBuf_toBuf]
  rw [h1]
  rfl

/-- The log-softmax writes only its own values' buffers and its result: the flattened labels stay. -/
theorem s2_v3 (W : Valuation τ sig (Elt F)) :
    after (s2 (F := F)) W (Proc.devRef .tc main_v3) = W (Proc.devRef .tc main_v3) := by
  after_results_simp

theorem s3_v6 (W : Valuation τ sig (Elt F)) (x0 : (⟨S4x8x64x128x128, .f32⟩ : BufTy).Contents (Elt F)) (x1 : (⟨S4x1x64x128x128, .i32⟩ : BufTy).Contents (Elt F))
    (h3 : W (Proc.devRef .tc main_v3) = ReadP.val_main_v3 (F := F) x1)
    (h4 : W (Proc.devRef .tc main_v4) = ReadP.val_main_v4 (F := F) x0) :
    after (s3 (F := F)) W (Proc.devRef .tc main_v6) = ReadP.val_main_v6 (F := F) x0 x1 := by
  after_results_simp
  simp only [TRef.ofBuf_toBuf]
  rw [h3, h4]
  simp only [TRef.ofBuf, TRef.toBuf, cast_eq]
  rfl

theorem s3_v3 (W : Valuation τ sig (Elt F)) :
    after (s3 (F := F)) W (Proc.devRef .tc main_v3) = W (Proc.devRef .tc main_v3) := by
  after_results_simp

theorem s4_v11 (W : Valuation τ sig (Elt F)) (x0 : (⟨S4x8x64x128x128, .f32⟩ : BufTy).Contents (Elt F)) (x1 : (⟨S4x1x64x128x128, .i32⟩ : BufTy).Contents (Elt F))
    (h3 : W (Proc.devRef .tc main_v3) = ReadP.val_main_v3 (F := F) x1)
    (h6 : W (Proc.devRef .tc main_v6) = ReadP.val_main_v6 (F := F) x0 x1) :
    after (s4 (F := F)) W (Proc.devRef .tc main_v11) = ReadP.val_main_v11 (F := F) x0 x1 := by
  after_results_simp
  rw [h3, h6]
  rfl

theorem s4_v15 (W : Valuation τ sig (Elt F)) (x1 : (⟨S4x1x64x128x128, .i32⟩ : BufTy).Contents (Elt F))
    (h3 : W (Proc.devRef .tc main_v3) = ReadP.val_main_v3 (F := F) x1) :
    after (s4 (F := F)) W (Proc.devRef .tc main_v15) = ReadP.val_main_v15 (F := F) x1 := by
  after_results_simp
  rw [h3]
  rfl

theorem s5_v25 (W : Valuation τ sig (Elt F)) (x0 : (⟨S4x8x64x128x128, .f32⟩ : BufTy).Contents (Elt F)) (x1 : (⟨S4x1x64x128x128, .i32⟩ : BufTy).Contents (Elt F))
    (h11 : W (Proc.devRef .tc main_v11) = ReadP.val_main_v11 (F := F) x0 x1)
    (h15 : W (Proc.devRef .tc main_v15) = ReadP.val_main_v15 (F := F) x1) :
    after (s5 (F := F)) W (Proc.devRef .tc main_v25) = ReadP.val_main_v25 (F := F) x0 x1 := by
  after_results_simp
  simp only [TRef.ofBuf_toBuf]
  rw [h11, h15]
  rfl

/-! ## The whole line -/

/-- After the whole line the result buffer holds the last stage's value of the two arguments' contents: each stretch's
    lemma at the contents the stretches before it leave, its hypotheses the earlier stretches' conclusions. -/
theorem ops_v25 (V : Valuation τ sig (Elt F)) :
    after (ValueP.ops (F := F)) V (Proc.devRef .tc main_v25)
      = ReadP.val_main_v25 (F := F) (V (Proc.devRef .tc main_arg0)) (V (Proc.devRef .tc main_arg1)) := by
  rw [ops_split, after_append, after_append, after_append, after_append]
  have e1 := s1_v1 V _ rfl
  have e3 := s1_v3 V _ rfl
  have e4 := s2_v4 (after s1 V) _ e1
  have e3' := (s2_v3 (after s1 V)).trans e3
  have e6 := s3_v6 (after s2 (after s1 V)) _ _ e3' e4
  have e3'' := (s3_v3 (after s2 (after s1 V))).trans e3'
  have e11 := s4_v11 (after s3 (after s2 (after s1 V))) _ _ e3'' e6
  have e15 := s4_v15 (after s3 (after s2 (after s1 V))) _ e3''
  exact s5_v25 (after s4 (after s3 (after s2 (after s1 V)))) _ _ e11 e15

/-- No operation writes the first argument's buffer. -/
theorem ops_arg0 (V : Valuation τ sig (Elt F)) :
    after (ValueP.ops (F := F)) V (Proc.devRef .tc main_arg0) = V (Proc.devRef .tc main_arg0) := by
  after_results_simp

/-- No operation writes the second argument's buffer. -/
theorem ops_arg1 (V : Valuation τ sig (Elt F)) :
    after (ValueP.ops (F := F)) V (Proc.devRef .tc main_arg1) = V (Proc.devRef .tc main_arg1) := by
  after_results_simp

/-- On every device, for any float values, from any memory with zero counters: every weakly fair execution of @main
    terminates with the result at the last stage's value of the argument arrays, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v25)
        = ReadP.val_main_v25 (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono
    (fun _ h c => ⟨(h c main_v25).trans (ops_v25 (launchContents m c)), (h c main_arg0).trans (ops_arg0 (launchContents m c)),
      (h c main_arg1).trans (ops_arg1 (launchContents m c))⟩)
    (run_seq ValueP.scopedRefs_eq ValueP.scopedSems_eq defs main (fun _ => ValueP.ops) ValueP.main_eq (fun _ => ValueP.ops_sub) m ρ)

end Cert.ReferenceIdeal.RefRun

end
-- ==== Proof.RefLogp.lean ====
/-
  The reference's log-softmax and labels read at a position: row `pos b d h w` of the [4194304, 8] matrix of scores is
  the column of eight scores at (b, ·, d, h, w), and entry `pos b d h w` of the label vector is the label word there.
-/
import proofs.«429569_j28656021799139_1_alg».proof.Proof.Spec
import proofs.«429569_j28656021799139_1_alg».proof.Proof.RefReadP
import Idealize.ShloMosaic.PureOps.Reduce
import Idealize.ShloMosaic.PureOps.Ideal.Laws
import Idealize.ShloMosaic.Lib.IdealHost
import Mathlib.Data.Finset.Fold

noncomputable section

open scoped BigOperators

namespace Cert.ReferenceIdeal.RefLogp

open Idealize.ShloMosaic Idealize.ShloMosaic.ValueIdx Cert.ReferenceIdeal Cert.ReferenceIdeal.Gen Cert.Spec

/-- Entry `pos b d h w` of the flattened labels is the label word at (b, 0, d, h, w). -/
theorem ref_lab (x1 : (⟨S4x1x64x128x128, .i32⟩ : BufTy).Contents (Elt Ideal)) (b : Fin 4) (d : Fin 64) (h w : Fin 128) :
    ReadP.val_main_v3 (F := Ideal) x1 (ix1 (pos b d h w)) = x1 (ix5 b 0 d h w) := by
  rw [ReadP.val_main_v3_apply, ReadP.val_main_v2_apply]
  have hb := b.isLt; have hd := d.isLt; have hh := h.isLt; have hw := w.isLt
  refine congrArg x1 (funext fun a => Fin.ext ?_)
  match a with
  | ⟨0, _⟩ => show (((b.val * 64 + d.val) * 128 + h.val) * 128 + w.val) / 1048576 = b.val; omega
  | ⟨1, _⟩ => rfl
  | ⟨2, _⟩ => show (((b.val * 64 + d.val) * 128 + h.val) * 128 + w.val) / 16384 % 64 = d.val; omega
  | ⟨3, _⟩ => show (((b.val * 64 + d.val) * 128 + h.val) * 128 + w.val) / 128 % 128 = h.val; omega
  | ⟨4, _⟩ => show (((b.val * 64 + d.val) * 128 + h.val) * 128 + w.val) / 1 % 128 = w.val; omega

/-- Row `pos b d h w` of the flattened scores, at class `k`, is the score at (b, k, d, h, w): the row-major number
    `pos · 8 + k` of the entry splits back into (b, d, h, w, k) by its quotients and remainders. -/
theorem row_apply (x0 : (⟨S4x8x64x128x128, .f32⟩ : BufTy).Contents (Elt Ideal)) (b : Fin 4) (d : Fin 64) (h w : Fin 128) (k : Fin 8) :
    ReadP.val_main_v1 (F := Ideal) x0 (ix2 (pos b d h w) k) = x0 (ix5 b k d h w) := by
  rw [ReadP.val_main_v1_apply, ReadP.val_main_v0_apply]
  have hb := b.isLt; have hd := d.isLt; have hh := h.isLt; have hw := w.isLt; have hk := k.isLt
  refine congrArg x0 (funext fun a => Fin.ext ?_)
  match a with
  | ⟨0, _⟩ => show ((((b.val * 64 + d.val) * 128 + h.val) * 128 + w.val) * 8 + k.val) / 8388608 = b.val; omega
  | ⟨1, _⟩ => show ((((b.val * 64 + d.val) * 128 + h.val) * 128 + w.val) * 8 + k.val) % 8 = k.val; omega
  | ⟨2, _⟩ => show ((((b.val * 64 + d.val) * 128 + h.val) * 128 + w.val) * 8 + k.val) / 131072 % 64 = d.val; omega
  | ⟨3, _⟩ => show ((((b.val * 64 + d.val) * 128 + h.val) * 128 + w.val) * 8 + k.val) / 1024 % 128 = h.val; omega
  | ⟨4, _⟩ => show ((((b.val * 64 + d.val) * 128 + h.val) * 128 + w.val) * 8 + k.val) / 8 % 128 = w.val; omega

/-- The reference's row maximum: the reduction over the class axis, at row `n`, is the fold of `max` from −∞ over the
    eight entries of the row. -/
theorem rowMax_apply (x0 : (⟨S4x8x64x128x128, .f32⟩ : BufTy).Contents (Elt Ideal)) (n : Fin 4194304) :
    ReadP.val_main_call0_v0 (F := Ideal) x0 (ix1 n)
      = (Finset.univ : Finset (Fin 8)).fold max (Ideal.ofBits .f32 0xFF800000#32)
          (fun k => ReadP.val_main_v1 (F := Ideal) x0 (ix2 n k)) := by
  unfold ReadP.val_main_call0_v0
  rw [Host.reduce_eq_fold_single FloatOps.maximumf _ _ reducesTo_S4194304x8_S4194304_d1
    (by decide : S4194304x8.Reduces [1] S4194304) h_S_]
  show (Finset.univ : Finset (Fin 8)).fold max (Ideal.ofBits .f32 0xFF800000#32) _ = _
  refine Finset.fold_congr fun k _ => ?_
  refine congrArg (ReadP.val_main_v1 (F := Ideal) x0) (funext fun a => Fin.ext ?_)
  match a with
  | ⟨0, _⟩ => rfl
  | ⟨1, _⟩ => rfl

/-- Entry (n, k) less the row's maximum: the maximum with the −∞ splat changes nothing, since the fold starts from −∞. -/
theorem shifted_apply (x0 : (⟨S4x8x64x128x128, .f32⟩ : BufTy).Contents (Elt Ideal)) (n : Fin 4194304) (k : Fin 8) :
    ReadP.val_main_call0_v5 (F := Ideal) x0 (ix2 n k)
      = ReadP.val_main_v1 (F := Ideal) x0 (ix2 n k)
        - (Finset.univ : Finset (Fin 8)).fold max (Ideal.ofBits .f32 0xFF800000#32)
            (fun k' => ReadP.val_main_v1 (F := Ideal) x0 (ix2 n k')) := by
  rw [ReadP.val_main_call0_v5_apply, ReadP.val_main_call0_v4_apply, ReadP.val_main_call0_v3_apply,
    ReadP.val_main_call0_v2_apply, ReadP.val_main_call0_v1_apply, ReadP.val_main_call0_cst_0_apply]
  have hi : ReadP.idx_main_call0_v3 (ReadP.idx_main_call0_v4 (ix2 n k)) = ix1 n :=
    funext fun a => Fin.ext (by match a with | ⟨0, _⟩ => rfl)
  rw [hi, rowMax_apply]
  simp only [Ideal.subf_def, Ideal.maximumf_def, Ideal.ofBits_def]
  rw [max_eq_right ((Finset.le_fold_max _).mpr (Or.inl le_rfl))]

/-- Row `pos b d h w` of the reference's log-softmax, at class `k`, is the log-softmax of the column of eight scores
    at (b, ·, d, h, w). -/
theorem ref_logp (x0 : (⟨S4x8x64x128x128, .f32⟩ : BufTy).Contents (Elt Ideal)) (b : Fin 4) (d : Fin 64) (h w : Fin 128) (k : Fin 8) :
    ReadP.val_main_v4 (F := Ideal) x0 (ix2 (pos b d h w) k) = logSoftmax (fun k' => x0 (ix5 b k' d h w)) k := by
  rw [ReadP.val_main_v4_apply, ReadP.val_main_call0_v10_apply, ReadP.val_main_call0_v9_apply,
    ReadP.val_main_call0_v8_apply, ReadP.val_main_call0_v7_apply, ReadP.val_main_call0_cst_1_apply]
  have hs : ∀ k' : Fin 8,
      ReadP.val_main_call0_v6 (F := Ideal) x0
          (ReadP.idx_main_call0_v7 (ReadP.idx_main_call0_v8 (ReadP.idx_main_call0_v10 (ix2 (pos b d h w) k))) k')
        = Ideal.exp (ReadP.val_main_call0_v5 (F := Ideal) x0 (ix2 (pos b d h w) k')) := by
    intro k'
    rw [ReadP.val_main_call0_v6_apply, Ideal.hostUnary_exp_def]
    refine congrArg (fun i => Ideal.exp (ReadP.val_main_call0_v5 (F := Ideal) x0 i)) (funext fun a => Fin.ext ?_)
    match a with
    | ⟨0, _⟩ => rfl
    | ⟨1, _⟩ => rfl
  simp only [hs, shifted_apply, row_apply, Ideal.subf_def, Ideal.hostUnary_log_def, Ideal.ofBits_def, Ideal.ofBits_zero_f32, zero_add]
  rfl

end Cert.ReferenceIdeal.RefLogp

end
-- ==== Proof.LibGatherScatter.lean ====
/-
  STABLEHLO'S GATHER AND SCATTER READ AT AN INDEX, for the dimension numbers that indexing an array by an integer
  array lowers to.

  `x[idx]` of a vector or of a matrix's rows is a `stablehlo.gather` whose start indices are a column `[M, 1]`;
  `x.at[idx].add(v)` of a vector, of a matrix's rows, or of a matrix at index pairs is a `stablehlo.scatter` with an
  `add` body whose scatter indices are a column `[M, 1]` or pairs `[M, 2]`. For each of these five dimension-number
  shapes this file builds the record from the sizes (`vecGatherDims`, `rowGatherDims`, `vecScatterDims`,
  `rowScatterDims`, `pairScatterDims`) and reads the operation at an index:

  * a gather's result element is the operand's at the start index, read SIGNED and CLAMPED into the operand
    (`vecGather_apply`, `rowGather_apply`);
  * a scatter's update lands on an operand element exactly when its index, read SIGNED and NOT clamped, is that
    element's (`vecScatter_resultIdx`, `rowScatter_resultIdx`, `pairScatter_resultIdx`); an update whose index is
    outside the operand lands nowhere;
  * so, over the extended reals, an accumulating scatter's result element is the operand's plus the sum of the updates
    whose index is that element's (`vecScatterAdd_apply`, `rowScatterAdd_apply`, `pairScatterAdd_apply`).
-/
import Idealize.ShloMosaic.PureOps.Ideal
import Idealize.ShloMosaic.Lib.ValueIdx

noncomputable section

open scoped BigOperators

namespace Idealize.ShloMosaic.GatherScatter

open Idealize.ShloMosaic Idealize.ShloMosaic.ValueIdx

/-! ## A scatter's result index, in general -/

section General
variable {s si u : Shape}

/-- An axis among the removed ones is not among the kept ones. -/
theorem not_mem_kept {axes : List (Fin s.rank)} {a : Fin s.rank} (h : a ∈ axes) : a ∉ s.kept axes := by
  intro hk
  have := (List.mem_filter.mp hk).2
  simp only [decide_not, Bool.not_eq_eq_eq_not, Bool.not_true, decide_eq_false_iff_not] at this
  exact this h

/-- An axis not among the removed ones is among the kept ones. -/
theorem mem_kept {axes : List (Fin s.rank)} {a : Fin s.rank} (h : a ∉ axes) : a ∈ s.kept axes :=
  List.mem_filter.mpr ⟨List.mem_finRange a, by simpa using h⟩

/-- An update lands on operand index `i` exactly when, on every operand axis, its start plus its window
    coordinate is `i`'s coordinate: the in-range test of `ScatterDims.resultIdx?` is then `i`'s own range. -/
theorem resultIdx?_eq_some_iff (d : ScatterDims s si u) {w : Nat} (j : u.Idx) (idx : IVec si w) (i : s.Idx) :
    d.resultIdx? j idx = some i ↔ ∀ a, d.start j idx a + (d.window j a : Int) = ((i a).val : Int) := by
  unfold ScatterDims.resultIdx?
  split
  · rename_i h
    constructor
    · intro he a
      have hi := congrFun (Option.some.inj he) a
      have hv := congrArg Fin.val hi
      simp only at hv
      have := (h a).1
      omega
    · intro H
      congr 1
      funext a
      refine Fin.ext ?_
      have := H a
      simp only
      omega
  · rename_i h
    constructor
    · intro he; cases he
    · intro H
      exfalso
      apply h
      intro a
      have := H a
      have := (i a).isLt
      omega

variable {t : Shape}

/-- A gather's operand index on an axis is the clamped start plus the batching coordinate plus the offset
    coordinate. -/
theorem operandIdx_val (d : GatherDims s si t) {w : Nat} (j : t.Idx) (idx : IVec si w) (a : Fin s.rank) :
    (d.operandIdx j idx a).val = d.start j idx a + d.batchCoord j a + d.offCoord j a := rfl

/-- A gather without batching axes has no batching coordinate. -/
theorem batchCoord_of_nil (d : GatherDims s si t) (h : d.operandBatchingDims = []) (j : t.Idx) (a : Fin s.rank) :
    d.batchCoord j a = 0 :=
  d.batchCoord_eq_zero j a (by rw [h]; exact List.not_mem_nil)

/-- On a collapsed axis a gather has no offset coordinate. -/
theorem offCoord_of_collapsed (d : GatherDims s si t) (j : t.Idx) {a : Fin s.rank} (h : a ∈ d.collapsedSliceDims) :
    d.offCoord j a = 0 :=
  d.offCoord_eq_zero j a fun hk => ((d.mem_sKept a).mp hk).1 h

end General

/-! ## Scalars scattered into a vector by a column of indices

What `x.at[idx].add(v)` of a vector `x : [N]` at `idx : [M]` lowers to: scatter indices `[M, 1]`, updates `[M]`,
update_window_dims `[]`, inserted_window_dims `[0]`, scatter_dims_to_operand_dims `[0]`, index_vector_dim 1. -/

section VecScatter

/-- Those dimension numbers for an operand `[N]`, scatter indices `[M, 1]` and updates `[M]`; their conditions
    `wf` are decided on a program's literal shapes. -/
abbrev vecScatterDims (N M : Nat) (wf : ScatterDims.WF ⟨1, ![N]⟩ ⟨2, ![M, 1]⟩ ⟨1, ![M]⟩ [] [0] [0] 1) :
    ScatterDims ⟨1, ![N]⟩ ⟨2, ![M, 1]⟩ ⟨1, ![M]⟩ where
  updateWindowDims := []
  insertedWindowDims := [0]
  scatterDimsToOperandDims := [0]
  indexVectorDim := 1
  wf := wf

variable {N M w : Nat} (wf : ScatterDims.WF ⟨1, ![N]⟩ ⟨2, ![M, 1]⟩ ⟨1, ![M]⟩ [] [0] [0] 1)

/-- Update `j`'s window starts, on the operand's one axis, at the index `idx[j, 0]` read signed. -/
theorem vecScatter_start (idx : IVec ⟨2, ![M, 1]⟩ w) (j : Fin M) (a : Fin (⟨1, ![N]⟩ : Shape).rank) :
    (vecScatterDims N M wf).start (ix1 j) idx a = (idx (ix2 j 0)).toInt := by
  obtain rfl : a = 0 := Subsingleton.elim _ _
  unfold ScatterDims.start
  rw [dif_pos (show (0 : Fin 1) ∈ (vecScatterDims N M wf).scatterDimsToOperandDims from List.mem_singleton.mpr rfl)]
  have hsi : (vecScatterDims N M wf).siIdx (ix1 j) ⟨List.idxOf (0 : Fin 1) (vecScatterDims N M wf).scatterDimsToOperandDims,
      List.idxOf_lt_length_iff.2 (List.mem_singleton.mpr rfl)⟩ = ix2 j 0 := by
    funext b; refine Fin.ext ?_
    match b with
    | ⟨0, _⟩ => rfl
    | ⟨1, _⟩ => rfl
  rw [hsi]

/-- The updates are scalars: the window coordinate is `0`. -/
theorem vecScatter_window (j : (⟨1, ![M]⟩ : Shape).Idx) (a : Fin (⟨1, ![N]⟩ : Shape).rank) :
    (vecScatterDims N M wf).window j a = 0 := by
  obtain rfl : a = 0 := Subsingleton.elim _ _
  unfold ScatterDims.window
  rw [dif_neg (not_mem_kept (List.mem_singleton.mpr rfl))]

/-- UPDATE `j` LANDS ON ELEMENT `i` exactly when its index `idx[j, 0]`, read signed, is `i`. -/
theorem vecScatter_resultIdx (idx : IVec ⟨2, ![M, 1]⟩ w) (j : Fin M) (i : Fin N) :
    (vecScatterDims N M wf).resultIdx? (ix1 j) idx = some (ix1 i) ↔ (idx (ix2 j 0)).toInt = (i.val : Int) := by
  rw [resultIdx?_eq_some_iff]
  constructor
  · intro H
    have := H 0
    rw [vecScatter_start, vecScatter_window, Nat.cast_zero, add_zero] at this
    exact this
  · intro H a
    obtain rfl : a = 0 := Subsingleton.elim _ _
    rw [vecScatter_start, vecScatter_window, Nat.cast_zero, add_zero]
    exact H

end VecScatter

/-! ## A vector gathered by a column of indices

What `x[idx]` of a vector `x : [N]` at `idx : [M]` lowers to: start indices `[M, 1]`, result `[M]`, offset_dims
`[]`, collapsed_slice_dims `[0]`, start_index_map `[0]`, index_vector_dim 1, slice_sizes `[1]`. -/

section VecGather
variable {α : Type}

/-- Those dimension numbers for an operand `[N]`, start indices `[M, 1]` and result `[M]`; their conditions `wf`
    are decided on a program's literal shapes. -/
abbrev vecGatherDims (N M : Nat) (wf : GatherDims.WF ⟨1, ![N]⟩ ⟨2, ![M, 1]⟩ ⟨1, ![M]⟩ [] [0] [] [0] [] 1 ![1]) :
    GatherDims ⟨1, ![N]⟩ ⟨2, ![M, 1]⟩ ⟨1, ![M]⟩ where
  offsetDims := []
  collapsedSliceDims := [0]
  operandBatchingDims := []
  startIndicesBatchingDims := []
  startIndexMap := [0]
  indexVectorDim := 1
  sliceSizes := ![1]
  wf := wf

variable {N M w : Nat} (wf : GatherDims.WF ⟨1, ![N]⟩ ⟨2, ![M, 1]⟩ ⟨1, ![M]⟩ [] [0] [] [0] [] 1 ![1])

/-- Result element `j`'s slice starts, on the operand's one axis, at the index `idx[j, 0]` read signed and clamped
    into `[0, N − 1]`. -/
theorem vecGather_start (idx : IVec ⟨2, ![M, 1]⟩ w) (j : Fin M) (a : Fin (⟨1, ![N]⟩ : Shape).rank) :
    (vecGatherDims N M wf).start (ix1 j) idx a = min (idx (ix2 j 0)).toInt.toNat (N - 1) := by
  obtain rfl : a = 0 := Subsingleton.elim _ _
  have hmem : (0 : Fin 1) ∈ (vecGatherDims N M wf).startIndexMap := List.mem_singleton.mpr rfl
  have hsi : (vecGatherDims N M wf).siIdx (ix1 j) ⟨List.idxOf (0 : Fin 1) (vecGatherDims N M wf).startIndexMap,
      List.idxOf_lt_length_iff.2 hmem⟩ = ix2 j 0 := by
    funext b; refine Fin.ext ?_
    match b with
    | ⟨0, _⟩ => rfl
    | ⟨1, _⟩ => rfl
  unfold GatherDims.start
  rw [dif_pos hmem, hsi]
  rfl

/-- THE GATHER READ AT `j`: the operand at the start index `idx[j, 0]`, read signed and clamped into
    `[0, N − 1]`. -/
theorem vecGather_apply (hN : 0 < N) (wf : GatherDims.WF ⟨1, ![N]⟩ ⟨2, ![M, 1]⟩ ⟨1, ![M]⟩ [] [0] [] [0] [] 1 ![1])
    (x : (⟨1, ![N]⟩ : Shape).Idx → α) (idx : IVec ⟨2, ![M, 1]⟩ w) (j : Fin M) :
    Host.gather (vecGatherDims N M wf) x idx (ix1 j) = x (ix1 ⟨min (idx (ix2 j 0)).toInt.toNat (N - 1), by omega⟩) := by
  unfold Host.gather
  congr 1
  funext a
  refine Fin.ext ?_
  rw [operandIdx_val, vecGather_start, batchCoord_of_nil _ rfl,
    offCoord_of_collapsed _ _ (by obtain rfl : a = 0 := Subsingleton.elim _ _; exact List.mem_singleton.mpr rfl)]
  obtain rfl : a = 0 := Subsingleton.elim _ _
  rfl

end VecGather

/-! ## Scalars scattered into a matrix by index pairs

What `x.at[r, c].add(v)` of a matrix `x : [N, N']` at `r, c : [M]` lowers to: scatter indices `[M, 2]` (the pairs
`(r[j], c[j])`), updates `[M]`, update_window_dims `[]`, inserted_window_dims `[0, 1]`,
scatter_dims_to_operand_dims `[0, 1]`, index_vector_dim 1. -/

section PairScatter

/-- Those dimension numbers for an operand `[N, N']`, scatter indices `[M, 2]` and updates `[M]`; their conditions
    `wf` are decided on a program's literal shapes. -/
abbrev pairScatterDims (N N' M : Nat) (wf : ScatterDims.WF ⟨2, ![N, N']⟩ ⟨2, ![M, 2]⟩ ⟨1, ![M]⟩ [] [0, 1] [0, 1] 1) :
    ScatterDims ⟨2, ![N, N']⟩ ⟨2, ![M, 2]⟩ ⟨1, ![M]⟩ where
  updateWindowDims := []
  insertedWindowDims := [0, 1]
  scatterDimsToOperandDims := [0, 1]
  indexVectorDim := 1
  wf := wf

variable {N N' M w : Nat} (wf : ScatterDims.WF ⟨2, ![N, N']⟩ ⟨2, ![M, 2]⟩ ⟨1, ![M]⟩ [] [0, 1] [0, 1] 1)

/-- Update `j`'s window starts, on the operand's row axis, at the index `idx[j, 0]` read signed. -/
theorem pairScatter_start0 (idx : IVec ⟨2, ![M, 2]⟩ w) (j : Fin M) :
    (pairScatterDims N N' M wf).start (ix1 j) idx 0 = (idx (ix2 j 0)).toInt := by
  have hmem : (0 : Fin 2) ∈ (pairScatterDims N N' M wf).scatterDimsToOperandDims :=
    (by decide : (0 : Fin 2) ∈ ([0, 1] : List (Fin 2)))
  have hsi : (pairScatterDims N N' M wf).siIdx (ix1 j) ⟨List.idxOf (0 : Fin 2) (pairScatterDims N N' M wf).scatterDimsToOperandDims,
      List.idxOf_lt_length_iff.2 hmem⟩ = ix2 j 0 := by
    funext b; refine Fin.ext ?_
    match b with
    | ⟨0, _⟩ => rfl
    | ⟨1, _⟩ => rfl
  unfold ScatterDims.start
  rw [dif_pos hmem, hsi]

/-- Update `j`'s window starts, on the operand's column axis, at the index `idx[j, 1]` read signed. -/
theorem pairScatter_start1 (idx : IVec ⟨2, ![M, 2]⟩ w) (j : Fin M) :
    (pairScatterDims N N' M wf).start (ix1 j) idx 1 = (idx (ix2 j 1)).toInt := by
  have hmem : (1 : Fin 2) ∈ (pairScatterDims N N' M wf).scatterDimsToOperandDims :=
    (by decide : (1 : Fin 2) ∈ ([0, 1] : List (Fin 2)))
  have hsi : (pairScatterDims N N' M wf).siIdx (ix1 j) ⟨List.idxOf (1 : Fin 2) (pairScatterDims N N' M wf).scatterDimsToOperandDims,
      List.idxOf_lt_length_iff.2 hmem⟩ = ix2 j 1 := by
    funext b; refine Fin.ext ?_
    match b with
    | ⟨0, _⟩ => rfl
    | ⟨1, _⟩ => rfl
  unfold ScatterDims.start
  rw [dif_pos hmem, hsi]

/-- The updates are scalars: the window coordinate is `0` on both axes. -/
theorem pairScatter_window (j : (⟨1, ![M]⟩ : Shape).Idx) (a : Fin (⟨2, ![N, N']⟩ : Shape).rank) :
    (pairScatterDims N N' M wf).window j a = 0 := by
  unfold ScatterDims.window
  rw [dif_neg (not_mem_kept (by
    match a with
    | ⟨0, _⟩ => exact (by decide : (0 : Fin 2) ∈ ([0, 1] : List (Fin 2)))
    | ⟨1, _⟩ => exact (by decide : (1 : Fin 2) ∈ ([0, 1] : List (Fin 2)))))]

/-- UPDATE `j` LANDS ON ELEMENT `(i, i')` exactly when its index pair `(idx[j, 0], idx[j, 1])`, read signed, is
    `(i, i')`. -/
theorem pairScatter_resultIdx (idx : IVec ⟨2, ![M, 2]⟩ w) (j : Fin M) (i : Fin N) (i' : Fin N') :
    (pairScatterDims N N' M wf).resultIdx? (ix1 j) idx = some (ix2 i i') ↔
      ((idx (ix2 j 0)).toInt = (i.val : Int) ∧ (idx (ix2 j 1)).toInt = (i'.val : Int)) := by
  rw [resultIdx?_eq_some_iff]
  constructor
  · intro H
    have h0 := H 0
    have h1 := H 1
    rw [pairScatter_start0, pairScatter_window, Nat.cast_zero, add_zero] at h0
    rw [pairScatter_start1, pairScatter_window, Nat.cast_zero, add_zero] at h1
    exact ⟨h0, h1⟩
  · intro H a
    match a with
    | ⟨0, _⟩ =>
      show (pairScatterDims N N' M wf).start (ix1 j) idx 0 + ((pairScatterDims N N' M wf).window (ix1 j) 0 : Int) = _
      rw [pairScatter_start0, pairScatter_window, Nat.cast_zero, add_zero]
      exact H.1
    | ⟨1, _⟩ =>
      show (pairScatterDims N N' M wf).start (ix1 j) idx 1 + ((pairScatterDims N N' M wf).window (ix1 j) 1 : Int) = _
      rw [pairScatter_start1, pairScatter_window, Nat.cast_zero, add_zero]
      exact H.2

end PairScatter

/-! ## Rows scattered into a matrix by a column of indices

What `x.at[idx].add(v)` of a matrix `x : [N, C]` at `idx : [M]` with `v : [M, C]` lowers to: scatter indices
`[M, 1]`, updates `[M, C]`, update_window_dims `[1]`, inserted_window_dims `[0]`, scatter_dims_to_operand_dims
`[0]`, index_vector_dim 1. -/

section RowScatter

/-- Those dimension numbers for an operand `[N, C]`, scatter indices `[M, 1]` and updates `[M, C]`; their
    conditions `wf` are decided on a program's literal shapes. -/
abbrev rowScatterDims (N C M : Nat) (wf : ScatterDims.WF ⟨2, ![N, C]⟩ ⟨2, ![M, 1]⟩ ⟨2, ![M, C]⟩ [1] [0] [0] 1) :
    ScatterDims ⟨2, ![N, C]⟩ ⟨2, ![M, 1]⟩ ⟨2, ![M, C]⟩ where
  updateWindowDims := [1]
  insertedWindowDims := [0]
  scatterDimsToOperandDims := [0]
  indexVectorDim := 1
  wf := wf

variable {N C M w : Nat} (wf : ScatterDims.WF ⟨2, ![N, C]⟩ ⟨2, ![M, 1]⟩ ⟨2, ![M, C]⟩ [1] [0] [0] 1)

/-- Update `(j, f)`'s window starts, on the operand's row axis, at the index `idx[j, 0]` read signed. -/
theorem rowScatter_start0 (idx : IVec ⟨2, ![M, 1]⟩ w) (j : Fin M) (f : Fin C) :
    (rowScatterDims N C M wf).start (ix2 j f) idx 0 = (idx (ix2 j 0)).toInt := by
  have hmem : (0 : Fin 2) ∈ (rowScatterDims N C M wf).scatterDimsToOperandDims := List.mem_singleton.mpr rfl
  have hsi : (rowScatterDims N C M wf).siIdx (ix2 j f) ⟨List.idxOf (0 : Fin 2) (rowScatterDims N C M wf).scatterDimsToOperandDims,
      List.idxOf_lt_length_iff.2 hmem⟩ = ix2 j 0 := by
    funext b; refine Fin.ext ?_
    match b with
    | ⟨0, _⟩ => rfl
    | ⟨1, _⟩ => rfl
  unfold ScatterDims.start
  rw [dif_pos hmem, hsi]

/-- The scatter indices name no column: on the operand's column axis the window starts at `0`. -/
theorem rowScatter_start1 (idx : IVec ⟨2, ![M, 1]⟩ w) (j : (⟨2, ![M, C]⟩ : Shape).Idx) :
    (rowScatterDims N C M wf).start j idx 1 = 0 := by
  unfold ScatterDims.start
  rw [dif_neg (by decide : (1 : Fin 2) ∉ ([0] : List (Fin 2)))]

/-- The row axis is inserted: the window coordinate on it is `0`. -/
theorem rowScatter_window0 (j : (⟨2, ![M, C]⟩ : Shape).Idx) : (rowScatterDims N C M wf).window j 0 = 0 := by
  unfold ScatterDims.window
  rw [dif_neg (not_mem_kept (List.mem_singleton.mpr rfl))]

/-- The window coordinate on the operand's column axis is the update's column. -/
theorem rowScatter_window1 (j : Fin M) (f : Fin C) : (rowScatterDims N C M wf).window (ix2 j f) 1 = f.val := by
  unfold ScatterDims.window
  rw [dif_pos (mem_kept (by decide : (1 : Fin 2) ∉ ([0] : List (Fin 2))))]
  rfl

/-- UPDATE `(j, f)` LANDS ON ELEMENT `(i, g)` exactly when its row's index `idx[j, 0]`, read signed, is `i` and its
    column `f` is `g`. -/
theorem rowScatter_resultIdx (idx : IVec ⟨2, ![M, 1]⟩ w) (j : Fin M) (f : Fin C) (i : Fin N) (g : Fin C) :
    (rowScatterDims N C M wf).resultIdx? (ix2 j f) idx = some (ix2 i g) ↔
      ((idx (ix2 j 0)).toInt = (i.val : Int) ∧ f = g) := by
  rw [resultIdx?_eq_some_iff]
  constructor
  · intro H
    have h0 := H 0
    have h1 := H 1
    rw [rowScatter_start0, rowScatter_window0, Nat.cast_zero, add_zero] at h0
    rw [rowScatter_start1, rowScatter_window1, zero_add] at h1
    exact ⟨h0, Fin.ext (Int.ofNat_inj.mp h1)⟩
  · intro H a
    match a with
    | ⟨0, _⟩ =>
      show (rowScatterDims N C M wf).start (ix2 j f) idx 0 + ((rowScatterDims N C M wf).window (ix2 j f) 0 : Int) = _
      rw [rowScatter_start0, rowScatter_window0, Nat.cast_zero, add_zero]
      exact H.1
    | ⟨1, _⟩ =>
      show (rowScatterDims N C M wf).start (ix2 j f) idx 1 + ((rowScatterDims N C M wf).window (ix2 j f) 1 : Int) = _
      rw [rowScatter_start1, rowScatter_window1, zero_add, H.2]

end RowScatter

/-! ## Rows of a matrix gathered by a column of indices

What `x[idx]` of a matrix `x : [N, C]` at `idx : [M]` lowers to: start indices `[M, 1]`, result `[M, C]`,
offset_dims `[1]`, collapsed_slice_dims `[0]`, start_index_map `[0]`, index_vector_dim 1, slice_sizes `[1, C]`. -/

section RowGather
variable {α : Type}

/-- Those dimension numbers for an operand `[N, C]`, start indices `[M, 1]` and result `[M, C]`; their conditions
    `wf` are decided on a program's literal shapes. -/
abbrev rowGatherDims (N C M : Nat)
    (wf : GatherDims.WF ⟨2, ![N, C]⟩ ⟨2, ![M, 1]⟩ ⟨2, ![M, C]⟩ [1] [0] [] [0] [] 1 ![1, C]) :
    GatherDims ⟨2, ![N, C]⟩ ⟨2, ![M, 1]⟩ ⟨2, ![M, C]⟩ where
  offsetDims := [1]
  collapsedSliceDims := [0]
  operandBatchingDims := []
  startIndicesBatchingDims := []
  startIndexMap := [0]
  indexVectorDim := 1
  sliceSizes := ![1, C]
  wf := wf

variable {N C M w : Nat} (wf : GatherDims.WF ⟨2, ![N, C]⟩ ⟨2, ![M, 1]⟩ ⟨2, ![M, C]⟩ [1] [0] [] [0] [] 1 ![1, C])

/-- Result element `(j, f)`'s slice starts, on the operand's row axis, at the index `idx[j, 0]` read signed and
    clamped into `[0, N − 1]`. -/
theorem rowGather_start0 (idx : IVec ⟨2, ![M, 1]⟩ w) (j : Fin M) (f : Fin C) :
    (rowGatherDims N C M wf).start (ix2 j f) idx 0 = min (idx (ix2 j 0)).toInt.toNat (N - 1) := by
  have hmem : (0 : Fin 2) ∈ (rowGatherDims N C M wf).startIndexMap := List.mem_singleton.mpr rfl
  have hsi : (rowGatherDims N C M wf).siIdx (ix2 j f) ⟨List.idxOf (0 : Fin 2) (rowGatherDims N C M wf).startIndexMap,
      List.idxOf_lt_length_iff.2 hmem⟩ = ix2 j 0 := by
    funext b; refine Fin.ext ?_
    match b with
    | ⟨0, _⟩ => rfl
    | ⟨1, _⟩ => rfl
  unfold GatherDims.start
  rw [dif_pos hmem, hsi]
  rfl

/-- The start indices name no column: on the operand's column axis the slice starts at `0`. -/
theorem rowGather_start1 (idx : IVec ⟨2, ![M, 1]⟩ w) (j : (⟨2, ![M, C]⟩ : Shape).Idx) :
    (rowGatherDims N C M wf).start j idx 1 = 0 := by
  unfold GatherDims.start
  rw [dif_neg (by decide : (1 : Fin 2) ∉ ([0] : List (Fin 2)))]

/-- The offset coordinate on the operand's column axis is the result's column. -/
theorem rowGather_offCoord1 (j : Fin M) (f : Fin C) : (rowGatherDims N C M wf).offCoord (ix2 j f) 1 = f.val := by
  unfold GatherDims.offCoord
  rw [dif_pos (mem_kept (by decide : (1 : Fin 2) ∉ ([0] ++ [] : List (Fin 2))))]
  rfl

/-- THE GATHER READ AT `(j, f)`: column `f` of the operand's row at the start index `idx[j, 0]`, read signed and
    clamped into `[0, N − 1]`. -/
theorem rowGather_apply (hN : 0 < N)
    (wf : GatherDims.WF ⟨2, ![N, C]⟩ ⟨2, ![M, 1]⟩ ⟨2, ![M, C]⟩ [1] [0] [] [0] [] 1 ![1, C])
    (x : (⟨2, ![N, C]⟩ : Shape).Idx → α) (idx : IVec ⟨2, ![M, 1]⟩ w) (j : Fin M)
    (f : Fin C) :
    Host.gather (rowGatherDims N C M wf) x idx (ix2 j f)
      = x (ix2 ⟨min (idx (ix2 j 0)).toInt.toNat (N - 1), by omega⟩ f) := by
  unfold Host.gather
  congr 1
  funext a
  refine Fin.ext ?_
  rw [operandIdx_val, batchCoord_of_nil _ rfl, Nat.add_zero]
  match a with
  | ⟨0, _⟩ =>
    show (rowGatherDims N C M wf).start (ix2 j f) idx 0 + (rowGatherDims N C M wf).offCoord (ix2 j f) 0 = _
    rw [rowGather_start0, offCoord_of_collapsed _ _ (List.mem_singleton.mpr rfl)]
    rfl
  | ⟨1, _⟩ =>
    show (rowGatherDims N C M wf).start (ix2 j f) idx 1 + (rowGatherDims N C M wf).offCoord (ix2 j f) 1 = _
    rw [rowGather_start1, rowGather_offCoord1, Nat.zero_add]

end RowGather

/-! ## The accumulating scatters over the extended reals

At the ideal instance an accumulating scatter (`Host.scatterAdd`) is each operand element plus the sum of the updates
that land on it; by the landing conditions above, the sum over the updates whose index is that element's. -/

section Sums

/-- A rank-1 index set is its coordinate range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {A : Type*} [AddCommMonoid A] {n : Nat} (f : (⟨1, ![n]⟩ : Shape).Idx → A) :
    ∑ i, f i = ∑ a : Fin n, f (ix1 a) := by
  rw [← Equiv.sum_comp (idxEquiv1 (n := n)).symm f]
  rfl

variable {φ : FTy}

/-- SCALARS ACCUMULATED INTO A VECTOR, read at `i`: the operand's element plus the sum of the updates whose index
    `idx[j, 0]`, read signed, is `i`. -/
theorem vecScatterAdd_apply {N M w : Nat} (wf : ScatterDims.WF ⟨1, ![N]⟩ ⟨2, ![M, 1]⟩ ⟨1, ![M]⟩ [] [0] [0] 1)
    (x : (⟨1, ![N]⟩ : Shape).Idx → EReal) (idx : IVec ⟨2, ![M, 1]⟩ w) (upd : (⟨1, ![M]⟩ : Shape).Idx → EReal)
    (i : Fin N) :
    Host.scatterAdd (F := Ideal) (φ := φ) (vecScatterDims N M wf) x idx upd (ix1 i)
      = x (ix1 i) + ∑ j ∈ Finset.univ.filter (fun j : Fin M => (idx (ix2 j 0)).toInt = (i.val : Int)), upd (ix1 j) := by
  simp only [Host.scatterAdd, Ideal.hostScatterAdd_def, Ideal.hostScatterAdd]
  congr 1
  rw [Finset.sum_filter, Finset.sum_filter, sum_idx1]
  refine Finset.sum_congr rfl fun j _ => ?_
  exact if_congr (vecScatter_resultIdx wf idx j i) rfl rfl

/-- SCALARS ACCUMULATED INTO A MATRIX BY INDEX PAIRS, read at `(i, i')`: the operand's element plus the sum of the
    updates whose index pair `(idx[j, 0], idx[j, 1])`, read signed, is `(i, i')`. -/
theorem pairScatterAdd_apply {N N' M w : Nat}
    (wf : ScatterDims.WF ⟨2, ![N, N']⟩ ⟨2, ![M, 2]⟩ ⟨1, ![M]⟩ [] [0, 1] [0, 1] 1)
    (x : (⟨2, ![N, N']⟩ : Shape).Idx → EReal) (idx : IVec ⟨2, ![M, 2]⟩ w) (upd : (⟨1, ![M]⟩ : Shape).Idx → EReal)
    (i : Fin N) (i' : Fin N') :
    Host.scatterAdd (F := Ideal) (φ := φ) (pairScatterDims N N' M wf) x idx upd (ix2 i i')
      = x (ix2 i i') + ∑ j ∈ Finset.univ.filter (fun j : Fin M =>
          (idx (ix2 j 0)).toInt = (i.val : Int) ∧ (idx (ix2 j 1)).toInt = (i'.val : Int)), upd (ix1 j) := by
  simp only [Host.scatterAdd, Ideal.hostScatterAdd_def, Ideal.hostScatterAdd]
  congr 1
  rw [Finset.sum_filter, Finset.sum_filter, sum_idx1]
  refine Finset.sum_congr rfl fun j _ => ?_
  exact if_congr (pairScatter_resultIdx wf idx j i i') rfl rfl

/-- ROWS ACCUMULATED INTO A MATRIX, read at `(i, g)`: the operand's element plus the sum of column `g` of the
    update rows whose index `idx[j, 0]`, read signed, is `i`. -/
theorem rowScatterAdd_apply {N C M w : Nat} (wf : ScatterDims.WF ⟨2, ![N, C]⟩ ⟨2, ![M, 1]⟩ ⟨2, ![M, C]⟩ [1] [0] [0] 1)
    (x : (⟨2, ![N, C]⟩ : Shape).Idx → EReal) (idx : IVec ⟨2, ![M, 1]⟩ w) (upd : (⟨2, ![M, C]⟩ : Shape).Idx → EReal)
    (i : Fin N) (g : Fin C) :
    Host.scatterAdd (F := Ideal) (φ := φ) (rowScatterDims N C M wf) x idx upd (ix2 i g)
      = x (ix2 i g) + ∑ j ∈ Finset.univ.filter (fun j : Fin M => (idx (ix2 j 0)).toInt = (i.val : Int)), upd (ix2 j g) := by
  simp only [Host.scatterAdd, Ideal.hostScatterAdd_def, Ideal.hostScatterAdd]
  congr 1
  rw [Finset.sum_filter, Finset.sum_filter, sum_idx2]
  refine Finset.sum_congr rfl fun j _ => ?_
  rw [Finset.sum_congr rfl fun f _ => if_congr (rowScatter_resultIdx wf idx j f i g) rfl rfl]
  by_cases h : (idx (ix2 j 0)).toInt = (i.val : Int)
  · simp only [h, true_and, if_true]
    rw [Finset.sum_ite_eq']
    simp only [Finset.mem_univ, if_true]
  · simp only [h, false_and, if_false, Finset.sum_const_zero]

end Sums

end Idealize.ShloMosaic.GatherScatter

end
-- ==== Proof.LibTakeAlongRow.lean ====
/-
  A BATCHED TAKE ALONG THE ROW AXIS, read at an index.

  `jnp.take_along_axis(x, idx, axis=1)` of `x : [B, N]` at `idx : [B, M]` lowers to a `stablehlo.gather` whose start
  indices are reshaped to `[B, M, 1]`: offset_dims `[]`, collapsed_slice_dims `[1]`, operand_batching_dims `[0]`,
  start_indices_batching_dims `[0]`, start_index_map `[1]`, index_vector_dim `2`, slice_sizes `[1, 1]`. This file builds
  that record from the sizes (`rowTakeDims`) and reads the gather at `(b, m)`: the operand at `(b, k)` with `k` the
  start index `idx[b, m, 0]` read SIGNED and CLAMPED into `[0, N − 1]` (`rowTake_apply`). A 32-bit word below `2^31`
  read signed is itself (`toInt_toNat_of_lt`), so an in-range index is taken as it stands.
-/
import Idealize.ShloMosaic.PureOps.Ideal
import Idealize.ShloMosaic.Lib.ValueIdx

noncomputable section

namespace Idealize.ShloMosaic.TakeAlongRow

open Idealize.ShloMosaic Idealize.ShloMosaic.ValueIdx

variable {α : Type}

/-- Those dimension numbers for an operand `[B, N]`, start indices `[B, M, 1]` and result `[B, M]`; their
    conditions `wf` are decided on a program's literal shapes. -/
abbrev rowTakeDims (B N M : Nat)
    (wf : GatherDims.WF ⟨2, ![B, N]⟩ ⟨3, ![B, M, 1]⟩ ⟨2, ![B, M]⟩ [] [1] [0] [1] [0] 2 ![1, 1]) :
    GatherDims ⟨2, ![B, N]⟩ ⟨3, ![B, M, 1]⟩ ⟨2, ![B, M]⟩ where
  offsetDims := []
  collapsedSliceDims := [1]
  operandBatchingDims := [0]
  startIndicesBatchingDims := [0]
  startIndexMap := [1]
  indexVectorDim := 2
  sliceSizes := ![1, 1]
  wf := wf

variable {B N M w : Nat}
  (wf : GatherDims.WF ⟨2, ![B, N]⟩ ⟨3, ![B, M, 1]⟩ ⟨2, ![B, M]⟩ [] [1] [0] [1] [0] 2 ![1, 1])

/-- The start index of result element `(b, m)` is read at `(b, m, 0)`: the batch coordinate, the position along the
    taken axis, and the one component of the index vector. -/
theorem siIdx_eq (b : Fin B) (m : Fin M) :
    (rowTakeDims B N M wf).siIdx (ix2 b m) ⟨List.idxOf (1 : Fin 2) (rowTakeDims B N M wf).startIndexMap,
      List.idxOf_lt_length_iff.2 (List.mem_singleton.mpr rfl)⟩ = ix3 b m 0 := by
  funext a; refine Fin.ext ?_
  match a with
  | ⟨0, _⟩ => rfl
  | ⟨1, _⟩ => rfl
  | ⟨2, _⟩ => rfl

/-- On the taken axis the slice starts at the index `idx[b, m, 0]` read signed and clamped into `[0, N − 1]`. -/
theorem start_1 (idx : IVec ⟨3, ![B, M, 1]⟩ w) (b : Fin B) (m : Fin M) :
    (rowTakeDims B N M wf).start (ix2 b m) idx 1 = min (idx (ix3 b m 0)).toInt.toNat (N - 1) := by
  have hmem : (1 : Fin 2) ∈ (rowTakeDims B N M wf).startIndexMap := List.mem_singleton.mpr rfl
  unfold GatherDims.start
  rw [dif_pos hmem, siIdx_eq]
  rfl

/-- On the batching axis the start index map names nothing: the slice starts at `0`. -/
theorem start_0 (idx : IVec ⟨3, ![B, M, 1]⟩ w) (j : (⟨2, ![B, M]⟩ : Shape).Idx) :
    (rowTakeDims B N M wf).start j idx 0 = 0 := by
  unfold GatherDims.start
  rw [dif_neg (by decide : (0 : Fin 2) ∉ ([1] : List (Fin 2)))]

/-- The batching coordinate: the result's batch coordinate on axis 0, nothing on the taken axis. -/
theorem batch_0 (b : Fin B) (m : Fin M) : (rowTakeDims B N M wf).batchCoord (ix2 b m) 0 = b.val := by
  unfold GatherDims.batchCoord
  rw [dif_pos (by decide : (0 : Fin 2) ∈ ([0] : List (Fin 2)))]
  rfl
theorem batch_1 (j : (⟨2, ![B, M]⟩ : Shape).Idx) : (rowTakeDims B N M wf).batchCoord j 1 = 0 :=
  (rowTakeDims B N M wf).batchCoord_eq_zero j 1 (by decide : (1 : Fin 2) ∉ ([0] : List (Fin 2)))

/-- There is no offset axis: the offset coordinate is nothing on the batching and on the collapsed axis. -/
theorem off_0 (j : (⟨2, ![B, M]⟩ : Shape).Idx) : (rowTakeDims B N M wf).offCoord j 0 = 0 :=
  (rowTakeDims B N M wf).offCoord_eq_zero j 0 fun h =>
    (((rowTakeDims B N M wf).mem_sKept 0).mp h).2 (by decide : (0 : Fin 2) ∈ ([0] : List (Fin 2)))
theorem off_1 (j : (⟨2, ![B, M]⟩ : Shape).Idx) : (rowTakeDims B N M wf).offCoord j 1 = 0 :=
  (rowTakeDims B N M wf).offCoord_eq_zero j 1 fun h =>
    (((rowTakeDims B N M wf).mem_sKept 1).mp h).1 (by decide : (1 : Fin 2) ∈ ([1] : List (Fin 2)))

/-- THE TAKE READ AT `(b, m)`: the operand at `(b, k)`, `k` the start index `idx[b, m, 0]` read signed and clamped
    into `[0, N − 1]`. -/
theorem rowTake_apply (hN : 0 < N) (x : (⟨2, ![B, N]⟩ : Shape).Idx → α) (idx : IVec ⟨3, ![B, M, 1]⟩ w)
    (b : Fin B) (m : Fin M) :
    Host.gather (rowTakeDims B N M wf) x idx (ix2 b m)
      = x (ix2 b ⟨min (idx (ix3 b m 0)).toInt.toNat (N - 1), by omega⟩) := by
  unfold Host.gather
  congr 1
  funext a
  refine Fin.ext ?_
  show (rowTakeDims B N M wf).start (ix2 b m) idx a + (rowTakeDims B N M wf).batchCoord (ix2 b m) a
    + (rowTakeDims B N M wf).offCoord (ix2 b m) a = _
  match a with
  | ⟨0, _⟩ =>
    show (rowTakeDims B N M wf).start (ix2 b m) idx 0 + (rowTakeDims B N M wf).batchCoord (ix2 b m) 0
      + (rowTakeDims B N M wf).offCoord (ix2 b m) 0 = b.val
    rw [start_0, batch_0, off_0]; omega
  | ⟨1, _⟩ =>
    show (rowTakeDims B N M wf).start (ix2 b m) idx 1 + (rowTakeDims B N M wf).batchCoord (ix2 b m) 1
      + (rowTakeDims B N M wf).offCoord (ix2 b m) 1 = min (idx (ix3 b m 0)).toInt.toNat (N - 1)
    rw [start_1, batch_1, off_1]; omega

/-- A 32-bit word below `2^31` read signed is itself: its sign bit is clear. -/
theorem toInt_toNat_of_lt {a : BitVec 32} {n : Nat} (h : a.toNat < n) (hn : n ≤ 2 ^ 31) : a.toInt.toNat = a.toNat := by
  rw [BitVec.toInt_eq_toNat_cond, if_pos (by omega)]
  exact Int.toNat_natCast _

end Idealize.ShloMosaic.TakeAlongRow

end
-- ==== Proof.RefSums.lean ====
/-
  The reference's two segment sums read at a class: the scatter-add of the negated taken log-probabilities, and of
  ones, by the label words, are the class's loss sum and count over all positions.
-/
import proofs.«429569_j28656021799139_1_alg».proof.Proof.Spec
import proofs.«429569_j28656021799139_1_alg».proof.Proof.SumIdx
import proofs.«429569_j28656021799139_1_alg».proof.Proof.RefReadP
import proofs.«429569_j28656021799139_1_alg».proof.Proof.RefLogp
import proofs.«429569_j28656021799139_1_alg».proof.Proof.LibGatherScatter
import proofs.«429569_j28656021799139_1_alg».proof.Proof.LibTakeAlongRow
import Idealize.ShloMosaic.PureOps.Reduce
import Idealize.ShloMosaic.PureOps.Ideal.Laws
import Idealize.ShloMosaic.Lib.IdealHost
import Idealize.ShloMosaic.Lib.ReduceAll

noncomputable section

open scoped BigOperators

namespace Cert.ReferenceIdeal.RefSums

open Idealize.ShloMosaic Idealize.ShloMosaic.ValueIdx Cert.ReferenceIdeal Cert.ReferenceIdeal.Gen Cert.Spec

/-- A 32-bit word read signed is the class number `c < 8` exactly when it is the word of `c`. -/
theorem toInt_eq_iff (L : BitVec 32) (c : Fin 8) : L.toInt = (c.val : Int) ↔ L = BitVec.ofNat 32 c.val := by
  have hc := c.isLt
  have hL := L.isLt
  constructor
  · intro h
    apply BitVec.eq_of_toNat_eq
    rw [BitVec.toNat_ofNat, Nat.mod_eq_of_lt (by omega)]
    rw [BitVec.toInt_eq_toNat_cond] at h
    split at h <;> omega
  · rintro rfl
    rw [BitVec.toInt_eq_toNat_cond, BitVec.toNat_ofNat, Nat.mod_eq_of_lt (by omega), if_pos (by omega)]

/-- A fold by `and` from 1 over one-bit words that are all 1 is 1. -/
theorem reduce_andi_of_all {s t u : Shape} {axes : List (Fin s.rank)} (x : s.Idx → BitVec 1) (init : u.Idx → BitVec 1)
    (h : s.ReducesTo axes t) (hu : 0 < u.numel) (j : t.Idx) (hinit : init (Shape.Idx.first hu) = 1#1)
    (hx : ∀ i, h.drop i = j → x i = 1#1) : Host.reduce IntOp.andi x init h hu j = 1#1 := by
  rw [Host.reduce_eq_foldl, hinit]
  have key : ∀ (l : List s.Idx), (∀ i ∈ l, x i = 1#1) → l.foldl (fun r i => IntOp.andi r (x i)) 1#1 = 1#1 := by
    intro l
    induction l with
    | nil => intro _; rfl
    | cons a l ih =>
      intro hl
      rw [List.foldl_cons, hl a List.mem_cons_self, show IntOp.andi 1#1 1#1 = 1#1 by decide]
      exact ih fun i hi => hl i (List.mem_cons_of_mem _ hi)
  apply key
  intro i hi
  have := (List.mem_filter.mp hi).2
  exact hx i (by simpa using this)

/-- A class number's word does not test negative. -/
theorem class_not_neg (c : Fin 8) : IntOp.cmpi .slt (BitVec.ofNat 32 c.val) 0#32 = 0#1 := by revert c; decide

/-- A class number's word tests between 0 and 7. -/
theorem class_in_bounds (c : Fin 8) :
    IntOp.andi (IntOp.cmpi .sge (BitVec.ofNat 32 c.val) 0#32) (IntOp.cmpi .sle (BitVec.ofNat 32 c.val) 7#32) = 1#1 := by
  revert c; decide

section AtPosition

variable (x0 : (⟨S4x8x64x128x128, .f32⟩ : BufTy).Contents (Elt Ideal))
  (x1 : (⟨S4x1x64x128x128, .i32⟩ : BufTy).Contents (Elt Ideal)) (n : Fin 4194304)

/-- The label column read at row `n` is the flattened labels' entry `n` (the scatter indices of the loss sums). -/
theorem v10_at : ReadP.val_main_v10 (F := Ideal) x1 (ix2 n 0) = ReadP.val_main_v3 (F := Ideal) x1 (ix1 n) := by
  rw [ReadP.val_main_v10_apply]
  exact congrArg _ (funext fun a => Fin.ext (by match a with | ⟨0, _⟩ => rfl))

/-- The same for the scatter indices of the counts. -/
theorem v14_at : ReadP.val_main_v14 (F := Ideal) x1 (ix2 n 0) = ReadP.val_main_v3 (F := Ideal) x1 (ix1 n) := by
  rw [ReadP.val_main_v14_apply]
  exact congrArg _ (funext fun a => Fin.ext (by match a with | ⟨0, _⟩ => rfl))

/-- The same for the take's indices. -/
theorem v5_at : ReadP.val_main_v5 (F := Ideal) x1 (ix2 n 0) = ReadP.val_main_v3 (F := Ideal) x1 (ix1 n) := by
  rw [ReadP.val_main_v5_apply]
  exact congrArg _ (funext fun a => Fin.ext (by match a with | ⟨0, _⟩ => rfl))

variable (c : Fin 8)

/-- A label that is a class number is not negative, so the take's wrapped index is the label itself. -/
theorem wrapped_at (hL : ReadP.val_main_v3 (F := Ideal) x1 (ix1 n) = BitVec.ofNat 32 c.val) :
    ReadP.val_main_call1_v4 (F := Ideal) x1 (ix2 n 0) = BitVec.ofNat 32 c.val := by
  rw [ReadP.val_main_call1_v4_apply, ReadP.val_main_call1_v1_apply, ReadP.val_main_call1_v0_apply,
    ReadP.val_main_call1_c_apply, v5_at, hL]
  rw [class_not_neg, select_zero]

/-- The wrapped index as the gather reads it, at `(n, 0, 0)`. -/
theorem start_at (hL : ReadP.val_main_v3 (F := Ideal) x1 (ix1 n) = BitVec.ofNat 32 c.val) :
    ReadP.val_main_call1_v5 (F := Ideal) x1 (ix3 n 0 0) = BitVec.ofNat 32 c.val := by
  rw [ReadP.val_main_call1_v5_apply]
  have hi : ReadP.idx_main_call1_v5 (ix3 n 0 0) = ix2 n 0 :=
    funext fun a => Fin.ext (by
      match a with
      | ⟨0, _⟩ => show ((n.val * 1 + 0) * 1 + 0) / 1 = n.val; omega
      | ⟨1, _⟩ => rfl)
  rw [hi]
  exact wrapped_at x1 n c hL

/-- The in-bounds mask at row `n` is 1: the index is a class number, between 0 and 7. -/
theorem mask_at (hL : ReadP.val_main_v3 (F := Ideal) x1 (ix1 n) = BitVec.ofNat 32 c.val) :
    ReadP.val_main_call1_v12 (F := Ideal) x1 (ix2 n 0) = 1#1 := by
  unfold ReadP.val_main_call1_v12
  refine reduce_andi_of_all _ _ _ _ _ rfl fun i hi => ?_
  obtain ⟨a, b', c', rfl⟩ : ∃ a b' c', i = ix3 a b' c' := ⟨i 0, i 1, i 2, eq_ix3 i⟩
  obtain rfl : b' = 0 := Subsingleton.elim _ _
  obtain rfl : c' = 0 := Subsingleton.elim _ _
  have ha : a = n := by
    have h1 := congrArg (fun j : S4194304x1.Idx => (j 0).val) hi
    have h2 := Shape.ReducesTo.drop_apply_val_of_eq reducesTo_S4194304x1x1_S4194304x1_d2 (ix3 a 0 0) 0 0
    exact Fin.ext (h2.symm.trans h1)
  subst ha
  rw [ReadP.val_main_call1_v11_apply, ReadP.val_main_call1_v7_apply, ReadP.val_main_call1_v10_apply,
    ReadP.val_main_call1_v6_apply, ReadP.val_main_call1_c_2_apply, ReadP.val_main_call1_v9_apply,
    ReadP.val_main_call1_v8_apply, ReadP.val_main_call1_c_1_apply, start_at x1 a c hL]
  exact class_in_bounds c

end AtPosition

/-- The program's gather record is the batched take's along the row axis. -/
theorem gather_rec : (gather_S4194304x8_S4194304x1x1_S4194304x1_n_1_0_0_1_2_11 : GatherDims S4194304x8 S4194304x1x1 S4194304x1)
    = TakeAlongRow.rowTakeDims 4194304 8 1 gather_S4194304x8_S4194304x1x1_S4194304x1_n_1_0_0_1_2_11_wf := rfl

/-- The program's scatter record is the vector scatter's by a column of indices. -/
theorem scatter_rec : (scatter_S8_S4194304x1_S4194304_n_0_0_1 : ScatterDims S8 S4194304x1 S4194304)
    = GatherScatter.vecScatterDims 8 4194304 scatter_S8_S4194304x1_S4194304_n_0_0_1_wf := rfl

section Taken

variable (x0 : (⟨S4x8x64x128x128, .f32⟩ : BufTy).Contents (Elt Ideal))
  (x1 : (⟨S4x1x64x128x128, .i32⟩ : BufTy).Contents (Elt Ideal)) (n : Fin 4194304) (c : Fin 8)

/-- The take at row `n` reads the log-probability of the label's class. -/
theorem gather_at (hL : ReadP.val_main_v3 (F := Ideal) x1 (ix1 n) = BitVec.ofNat 32 c.val) :
    ReadP.val_main_call1_v13 (F := Ideal) x0 x1 (ix2 n 0) = ReadP.val_main_v4 (F := Ideal) x0 (ix2 n c) := by
  unfold ReadP.val_main_call1_v13
  rw [gather_rec, TakeAlongRow.rowTake_apply _ (by decide : 0 < 8)]
  refine congrArg _ (congrArg (ix2 n) (Fin.ext ?_))
  show min (ReadP.val_main_call1_v5 (F := Ideal) x1 (ix3 n 0 0)).toInt.toNat (8 - 1) = c.val
  have hc := c.isLt
  have ht : (BitVec.ofNat 32 c.val).toNat = c.val := by rw [BitVec.toNat_ofNat, Nat.mod_eq_of_lt (by omega)]
  rw [start_at x1 n c hL, TakeAlongRow.toInt_toNat_of_lt (n := 8) (by omega) (by decide), ht]
  omega

/-- So the taken value, in bounds, is that log-probability … -/
theorem taken_at (hL : ReadP.val_main_v3 (F := Ideal) x1 (ix1 n) = BitVec.ofNat 32 c.val) :
    ReadP.val_main_v6 (F := Ideal) x0 x1 (ix2 n 0) = ReadP.val_main_v4 (F := Ideal) x0 (ix2 n c) := by
  rw [ReadP.val_main_v6_apply, mask_at x1 n c hL, select_one, gather_at x0 x1 n c hL]

/-- … and the update is its negation. -/
theorem update_at (hL : ReadP.val_main_v3 (F := Ideal) x1 (ix1 n) = BitVec.ofNat 32 c.val) :
    ReadP.val_main_v8 (F := Ideal) x0 x1 (ix1 n) = -(ReadP.val_main_v4 (F := Ideal) x0 (ix2 n c)) := by
  rw [ReadP.val_main_v8_apply, ReadP.val_main_v7_apply]
  have hi : ReadP.idx_main_v7 (ix1 n) = ix2 n 0 :=
    funext fun a => Fin.ext (by
      match a with
      | ⟨0, _⟩ => show n.val / 1 = n.val; omega
      | ⟨1, _⟩ => rfl)
  rw [hi, taken_at x0 x1 n c hL, Ideal.hostNegf_def, Ideal.negf_def]

end Taken

/-- What position (b, d, h, w) adds to class `c`'s scattered loss sum: the negated log-probability of the label's
    class when the label word is `c`, nothing otherwise. -/
theorem loss_term (x0 : (⟨S4x8x64x128x128, .f32⟩ : BufTy).Contents (Elt Ideal))
    (x1 : (⟨S4x1x64x128x128, .i32⟩ : BufTy).Contents (Elt Ideal)) (c : Fin 8) (b : Fin 4) (d : Fin 64) (h w : Fin 128) :
    (if (ReadP.val_main_v10 (F := Ideal) x1 (ix2 (pos b d h w) 0)).toInt = (c.val : Int)
      then ReadP.val_main_v8 (F := Ideal) x0 x1 (ix1 (pos b d h w)) else 0) = lossTerm x0 x1 c b d h w := by
  unfold lossTerm
  rw [v10_at, RefLogp.ref_lab]
  by_cases hL : x1 (ix5 b 0 d h w) = BitVec.ofNat 32 c.val
  · rw [if_pos ((toInt_eq_iff _ c).mpr hL), if_pos hL,
      update_at x0 x1 (pos b d h w) c ((RefLogp.ref_lab x1 b d h w).trans hL), RefLogp.ref_logp, zero_sub]
  · rw [if_neg (fun e => hL ((toInt_eq_iff _ c).mp e)), if_neg hL]

/-- What position (b, d, h, w) adds to class `c`'s scattered count: one when the label word is `c`. -/
theorem count_term (x1 : (⟨S4x1x64x128x128, .i32⟩ : BufTy).Contents (Elt Ideal)) (c : Fin 8) (b : Fin 4) (d : Fin 64)
    (h w : Fin 128) :
    (if (ReadP.val_main_v14 (F := Ideal) x1 (ix2 (pos b d h w) 0)).toInt = (c.val : Int)
      then ReadP.val_main_v12 (F := Ideal) (ix1 (pos b d h w)) else 0) = countTerm x1 c b d h w := by
  unfold countTerm
  rw [v14_at, RefLogp.ref_lab, ReadP.val_main_v12_apply, ReadP.val_main_cst_0_apply]
  show (if _ then Ideal.ofBits .f32 0x3F800000#32 else 0) = _
  rw [Ideal.ofBits_one_f32]
  exact if_congr (toInt_eq_iff _ c) rfl rfl

/-- The reference's per-class loss sums are `classSum`. -/
theorem ref_sums (x0 : (⟨S4x8x64x128x128, .f32⟩ : BufTy).Contents (Elt Ideal)) (x1 : (⟨S4x1x64x128x128, .i32⟩ : BufTy).Contents (Elt Ideal))
    (c : Fin 8) : ReadP.val_main_v11 (F := Ideal) x0 x1 (ix1 c) = classSum x0 x1 c := by
  unfold ReadP.val_main_v11
  rw [scatter_rec, GatherScatter.vecScatterAdd_apply, ReadP.val_main_v9_apply, ReadP.val_main_cst_apply]
  show Ideal.ofBits .f32 0x00000000#32 + _ = _
  rw [Ideal.ofBits_zero_f32, zero_add, Finset.sum_filter, sum_pos]
  unfold classSum
  exact Finset.sum_congr rfl fun b _ => Finset.sum_congr rfl fun d _ => Finset.sum_congr rfl fun h _ =>
    Finset.sum_congr rfl fun w _ => loss_term x0 x1 c b d h w

/-- The reference's per-class counts are `classCount`. -/
theorem ref_counts (x1 : (⟨S4x1x64x128x128, .i32⟩ : BufTy).Contents (Elt Ideal)) (c : Fin 8) :
    ReadP.val_main_v15 (F := Ideal) x1 (ix1 c) = classCount x1 c := by
  unfold ReadP.val_main_v15
  rw [scatter_rec, GatherScatter.vecScatterAdd_apply, ReadP.val_main_v13_apply, ReadP.val_main_cst_1_apply]
  show Ideal.ofBits .f32 0x00000000#32 + _ = _
  rw [Ideal.ofBits_zero_f32, zero_add, Finset.sum_filter, sum_pos]
  unfold classCount
  exact Finset.sum_congr rfl fun b _ => Finset.sum_congr rfl fun d _ => Finset.sum_congr rfl fun h _ =>
    Finset.sum_congr rfl fun w _ => count_term x1 c b d h w

end Cert.ReferenceIdeal.RefSums

end
-- ==== Proof.RefResult.lean ====
/-
  The reference's result as the `tail` of its two segment sums, and those as the class sums and class counts of the
  argument arrays.
-/
import proofs.«429569_j28656021799139_1_alg».proof.Proof.RefSums
import proofs.«429569_j28656021799139_1_alg».proof.Proof.RefReadP
import proofs.«429569_j28656021799139_1_alg».proof.Proof.Spec

noncomputable section

namespace Cert.ReferenceIdeal.RefResult

open Idealize.ShloMosaic Idealize.ShloMosaic.ValueIdx Cert.ReferenceIdeal Cert.ReferenceIdeal.Gen Cert.Spec

/-- The last stage is the `tail` of the scatter-added loss sums and counts: the reference's closing lines, read. -/
theorem result_eq_tail (x0 : (⟨S4x8x64x128x128, .f32⟩ : BufTy).Contents (Elt Ideal)) (x1 : (⟨S4x1x64x128x128, .i32⟩ : BufTy).Contents (Elt Ideal)) :
    ReadP.val_main_v25 (F := Ideal) x0 x1
      = Cert.Spec.tail (F := Ideal) bcast_S_S8 reducesTo_S8_S_d0 h_S_ (ReadP.val_main_v11 (F := Ideal) x0 x1) (ReadP.val_main_v15 (F := Ideal) x1) := by
  unfold ReadP.val_main_v25 ReadP.val_main_v24 ReadP.val_main_v23 ReadP.val_main_v22 ReadP.val_main_v21 ReadP.val_main_v20
    ReadP.val_main_v19 ReadP.val_main_v18 ReadP.val_main_v17 ReadP.val_main_v16 ReadP.val_main_call2_v1 ReadP.val_main_call2_v0
    ReadP.val_main_cst_6 ReadP.val_main_cst_5 ReadP.val_main_cst_4 ReadP.val_main_cst_3 ReadP.val_main_cst_2 Cert.Spec.tail
  rfl

/-- The reference's eight loss sums and eight counts, as vectors, are the class sums and counts. -/
theorem sums_eq (x0 : (⟨S4x8x64x128x128, .f32⟩ : BufTy).Contents (Elt Ideal)) (x1 : (⟨S4x1x64x128x128, .i32⟩ : BufTy).Contents (Elt Ideal)) :
    ReadP.val_main_v11 (F := Ideal) x0 x1 = fun i => classSum x0 x1 (i 0) := by
  funext i
  obtain ⟨k, rfl⟩ : ∃ k : Fin 8, i = ix1 k := ⟨i 0, eq_ix1 i⟩
  exact RefSums.ref_sums x0 x1 k
theorem counts_eq (x1 : (⟨S4x1x64x128x128, .i32⟩ : BufTy).Contents (Elt Ideal)) :
    ReadP.val_main_v15 (F := Ideal) x1 = fun i => classCount x1 (i 0) := by
  funext i
  obtain ⟨k, rfl⟩ : ∃ k : Fin 8, i = ix1 k := ⟨i 0, eq_ix1 i⟩
  exact RefSums.ref_counts x1 k

end Cert.ReferenceIdeal.RefResult

end
-- ==== Proof.lean ====
/-
  The certificate. Both programs compute, from the scores `x : [4, 8, 64, 128, 128]` and the label words
  `lab : [4, 1, 64, 128, 128]`, for each of the eight classes the sum over the positions labelled with that class of
  minus the log-softmax of the position's column of scores at the class, and the number of such positions; the result is
  the mean, over the classes that occur, of each class's mean loss.

  The kernel walks the grid (batch row, chunk of eight depths): each point adds to two resident accumulators the sums
  over its block of the masked `0 − log-softmax` and of the mask, a row's first point starting from zeros; a row's
  accumulators are written back after its last chunk and the host adds the four rows. The reference flattens the
  positions, takes the log-softmax row by row, picks each row's entry at its label and scatter-adds the negated picks,
  and ones, by label; a label outside the eight classes is dropped by the scatter, as the kernel's mask drops it. Over
  the extended reals both are the same sums of the same terms (addition is commutative and associative there, `0 − x`
  is `−x`, and `max` from −∞ is the maximum), and the closing lines are the same function of the sums and counts.
-/
import proofs.«429569_j28656021799139_1_alg».proof.Defs
import proofs.«429569_j28656021799139_1_alg».proof.Proof.Gen.Kernel
import proofs.«429569_j28656021799139_1_alg».proof.Proof.Gen.Kernel.Frame
import proofs.«429569_j28656021799139_1_alg».proof.Proof.Gen.KernelIdeal
import proofs.«429569_j28656021799139_1_alg».proof.Proof.Gen.KernelIdeal.Frame
import proofs.«429569_j28656021799139_1_alg».proof.Proof.Gen.ReferenceIdeal
import proofs.«429569_j28656021799139_1_alg».proof.Proof.Gen.Pre_finite_inputs
import proofs.«429569_j28656021799139_1_alg».proof.Proof.KRun
import proofs.«429569_j28656021799139_1_alg».proof.Proof.RefRun
import proofs.«429569_j28656021799139_1_alg».proof.Proof.RefResult
import Idealize.ShloMosaic.Adequacy
import Idealize.ShloMosaic.Init

noncomputable section

namespace Cert.Proof

open Idealize.ShloMosaic Idealize.SL.Sem

/-- The word-level kernel and its idealization run, and leave the arguments as they were: the generated frames. -/
theorem frame_kernel : Cert.frame_Kernel := fun m ρ _ => Cert.Kernel.Gen.frame m ρ
theorem frame_kernelIdeal : Cert.frame_KernelIdeal := fun m ρ _ => Cert.KernelIdeal.Gen.frame m ρ

/-- The reference runs and leaves the arguments as they were: its run with the result dropped. -/
theorem frame_referenceIdeal : Cert.frame_ReferenceIdeal := fun m ρ _ =>
  (θ_run Cert.ReferenceIdeal.defs _ _).mono (fun _ h c => (h c).2) (Cert.ReferenceIdeal.RefRun.run (F := Ideal) m ρ)

/-- The ideal pass rewrote nothing. -/
theorem preserves : Cert.preserves_Kernel_KernelIdeal := trivial

/-- From arguments that agree, the idealized kernel ends at the `tail` of the class sums and counts of its arguments,
    and the idealized reference at the `tail` of its scatter-added sums and counts, which are the same class sums and
    counts. -/
theorem algebraic : Cert.algebraic_KernelIdeal_ReferenceIdeal := by
  intro m ρ m' ρ' _ hagree
  refine ⟨fun c => Cert.KernelIdeal.Run.result m c, Cert.KernelIdeal.Run.run m ρ, ?_⟩
  refine (θ_run Cert.ReferenceIdeal.defs _ _).mono (fun _ h c => ⟨(h c).1.trans ?_, (h c).2⟩)
    (Cert.ReferenceIdeal.RefRun.run (F := Ideal) m' ρ')
  rw [(hagree c).1, (hagree c).2, Cert.ReferenceIdeal.RefResult.result_eq_tail,
    Cert.ReferenceIdeal.RefResult.sums_eq, Cert.ReferenceIdeal.RefResult.counts_eq]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
